-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x262144x3 : Shape := ⟨3, ![1, 262144, 3]⟩
abbrev S1x262144x10 : Shape := ⟨3, ![1, 262144, 10]⟩
abbrev S1x262144x64 : Shape := ⟨3, ![1, 262144, 64]⟩
abbrev S4096 : Shape := ⟨1, ![4096]⟩
abbrev S_ : Shape := ⟨0, ![]⟩

class Facts : Prop where
  bcast_S_S1x262144x3 : S_.BroadcastsInDim S1x262144x3 (![] : Fin 0 → Fin S1x262144x3.rank)
  reducesTo_S1x262144x3_S_d0_1_2 : S1x262144x3.ReducesTo [0, 1, 2] S_
  h_S_ : 0 < S_.numel
  bcast_S_S1x262144x10 : S_.BroadcastsInDim S1x262144x10 (![] : Fin 0 → Fin S1x262144x10.rank)
  reducesTo_S1x262144x10_S_d0_1_2 : S1x262144x10.ReducesTo [0, 1, 2] S_
  bcast_S_S1x262144x64 : S_.BroadcastsInDim S1x262144x64 (![] : Fin 0 → Fin S1x262144x64.rank)
  reducesTo_S1x262144x64_S_d0_1_2 : S1x262144x64.ReducesTo [0, 1, 2] S_

variable [Facts]

def fn_part1 {F : FTy → Type} [FloatOps F] (main_arg4 : FVec F S1x262144x64 .f32) (main_v13 : IVec S_ 1) (main_v16 : IVec S1x262144x10 1) : IVec S_ 1 :=
  let main_c_5 : IVec S_ 1 := constantI S_ 1 1#1
  let main_v17 : IVec S_ 1 := (fun x v => Host.reduce IntOp.andi x v reducesTo_S1x262144x10_S_d0_1_2 h_S_) main_v16 main_c_5
  let main_v18 : IVec S_ 1 := andi main_v13 main_v17
  let main_v19 : FVec F S1x262144x64 .f32 := Host.absf main_arg4
  let main_cst_6 : FVec F S_ .f32 := constant S_ .f32 0x7F800000#32
  let main_v20 : FVec F S1x262144x64 .f32 := broadcastInDim S1x262144x64 ![] bcast_S_S1x262144x64 main_cst_6
  let main_v21 : IVec S1x262144x64 1 := cmpf .olt main_v19 main_v20
  let main_c_7 : IVec S_ 1 := constantI S_ 1 1#1
  let main_v22 : IVec S_ 1 := (fun x v => Host.reduce IntOp.andi x v reducesTo_S1x262144x64_S_d0_1_2 h_S_) main_v21 main_c_7
  let main_v23 : IVec S_ 1 := andi main_v18 main_v22
  main_v23

def fn {F : FTy → Type} [FloatOps F] (main_arg0 : FVec F S1x262144x3 .f32) (main_arg1 : FVec F S1x262144x10 .f32) (main_arg2 : FVec F S1x262144x3 .f32) (main_arg3 : FVec F S1x262144x10 .f32) (main_arg4 : FVec F S1x262144x64 .f32) (main_arg5 : IVec S4096 32) (main_arg6 : IVec S4096 32) (main_arg7 : IVec S4096 32) : IVec S_ 1 :=
  let main_v0 : FVec F S1x262144x3 .f32 := Host.absf main_arg0
  let main_cst : FVec F S_ .f32 := constant S_ .f32 0x7F800000#32
  let main_v1 : FVec F S1x262144x3 .f32 := broadcastInDim S1x262144x3 ![] bcast_S_S1x262144x3 main_cst
  let main_v2 : IVec S1x262144x3 1 := cmpf .olt main_v0 main_v1
  let main_c : IVec S_ 1 := constantI S_ 1 1#1
  let main_v3 : IVec S_ 1 := (fun x v => Host.reduce IntOp.andi x v reducesTo_S1x262144x3_S_d0_1_2 h_S_) main_v2 main_c
  let main_v4 : FVec F S1x262144x10 .f32 := Host.absf main_arg1
  let main_cst_0 : FVec F S_ .f32 := constant S_ .f32 0x7F800000#32
  let main_v5 : FVec F S1x262144x10 .f32 := broadcastInDim S1x262144x10 ![] bcast_S_S1x262144x10 main_cst_0
  let main_v6 : IVec S1x262144x10 1 := cmpf .olt main_v4 main_v5
  let main_c_1 : IVec S_ 1 := constantI S_ 1 1#1
  let main_v7 : IVec S_ 1 := (fun x v => Host.reduce IntOp.andi x v reducesTo_S1x262144x10_S_d0_1_2 h_S_) main_v6 main_c_1
  let main_v8 : IVec S_ 1 := andi main_v3 main_v7
  let main_v9 : FVec F S1x262144x3 .f32 := Host.absf main_arg2
  let main_cst_2 : FVec F S_ .f32 := constant S_ .f32 0x7F800000#32
  let main_v10 : FVec F S1x262144x3 .f32 := broadcastInDim S1x262144x3 ![] bcast_S_S1x262144x3 main_cst_2
  let main_v11 : IVec S1x262144x3 1 := cmpf .olt main_v9 main_v10
  let main_c_3 : IVec S_ 1 := constantI S_ 1 1#1
  let main_v12 : IVec S_ 1 := (fun x v => Host.reduce IntOp.andi x v reducesTo_S1x262144x3_S_d0_1_2 h_S_) main_v11 main_c_3
  let main_v13 : IVec S_ 1 := andi main_v8 main_v12
  let main_v14 : FVec F S1x262144x10 .f32 := Host.absf main_arg3
  let main_cst_4 : FVec F S_ .f32 := constant S_ .f32 0x7F800000#32
  let main_v15 : FVec F S1x262144x10 .f32 := broadcastInDim S1x262144x10 ![] bcast_S_S1x262144x10 main_cst_4
  let main_v16 : IVec S1x262144x10 1 := cmpf .olt main_v14 main_v15
  fn_part1 (F := F) main_arg4 main_v13 main_v16
-- ==== Kernel.lean ====
abbrev S1x262144x3 : Shape := ⟨3, ![1, 262144, 3]⟩
abbrev S1x262144x10 : Shape := ⟨3, ![1, 262144, 10]⟩
abbrev S1x262144x64 : Shape := ⟨3, ![1, 262144, 64]⟩
abbrev S4096 : Shape := ⟨1, ![4096]⟩
abbrev S1x1 : Shape := ⟨2, ![1, 1]⟩
abbrev S1x4096x3 : Shape := ⟨3, ![1, 4096, 3]⟩
abbrev S1x4096x10 : Shape := ⟨3, ![1, 4096, 10]⟩
abbrev S1x4096 : Shape := ⟨2, ![1, 4096]⟩
abbrev S1 : Shape := ⟨1, ![1]⟩
abbrev S1x4096x1 : Shape := ⟨3, ![1, 4096, 1]⟩
abbrev S_ : Shape := ⟨0, ![]⟩
abbrev S262144x64 : Shape := ⟨2, ![262144, 64]⟩
abbrev S4096x1 : Shape := ⟨2, ![4096, 1]⟩
abbrev S4096x64 : Shape := ⟨2, ![4096, 64]⟩

abbrev nBuf : Space → Nat
  | .hbm => 69
  | .vmem => 12
  | .smem => 0
  | _ => 0

abbrev bufTy : (tb : Table) → Fin (tcTables nBuf tb) → BufTy
  | .hbm, ⟨0, _⟩ => ⟨S1x262144x3, .f32⟩
  | .hbm, ⟨1, _⟩ => ⟨S1x262144x10, .f32⟩
  | .hbm, ⟨2, _⟩ => ⟨S1x262144x3, .f32⟩
  | .hbm, ⟨3, _⟩ => ⟨S1x262144x10, .f32⟩
  | .hbm, ⟨4, _⟩ => ⟨S1x262144x64, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S262144x64, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x64, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x64, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x64, .f32⟩
  | .hbm, ⟨45, _⟩ => ⟨S4096x64, .f32⟩
  | .hbm, ⟨46, _⟩ => ⟨S4096x64, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x64, .f32⟩
  | .hbm, ⟨51, _⟩ => ⟨S4096x64, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S1x4096x10, .f32⟩
  | .local _ .vmem, ⟨5, _⟩ => ⟨S1x4096x10, .f32⟩
  | .local _ .vmem, ⟨6, _⟩ => ⟨S1x4096x10, .f32⟩
  | .local _ .vmem, ⟨7, _⟩ => ⟨S1x4096x10, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S1x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_cst : Ref sig .tc := ⟨.hbm, 56, rfl⟩
abbrev main_call0_v0 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v36 : BitVec 1 := Scalar.cmpi .eq arg0 c63_i32
  let v37 : BitVec 32 := Scalar.extui v36
  let c0_i32_25 : BitVec 32 := 0#32
  let v38 : BitVec 1 := Scalar.cmpi .ne v37 c0_i32_25
  v38

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096x3_S1x4096x3_0_0_0 : ∀ a, (![0, 0, 0] : Fin 3 → Nat) a + S1x4096x3.size a ≤ S1x4096x3.size a
  h_S1x4096x3 : 0 < S1x4096x3.numel
  reduces_S1x4096x3_S1x4096 : S1x4096x3.Reduces [2] S1x4096
  reduces_S1x4096_S1 : S1x4096.Reduces [1] S1
  shapeCasts_S1_S1x1 : S1.ShapeCasts S1x1
  inb_S1x4096x10_S1x4096x10_0_0_0 : ∀ a, (![0, 0, 0] : Fin 3 → Nat) a + S1x4096x10.size a ≤ S1x4096x10.size a
  h_S1x4096x10 : 0 < S1x4096x10.numel
  reduces_S1x4096x10_S1x4096 : S1x4096x10.Reduces [2] S1x4096
  shapeCasts_S1x4096_S1x4096x1 : S1x4096.ShapeCasts S1x4096x1
  broadcasts_S1x4096x1_S1x4096x10 : S1x4096x1.Broadcasts S1x4096x10
  shapeCasts_S1x1_S_ : S1x1.ShapeCasts S_
  shapeCasts_S1x262144x64_S262144x64 : S1x262144x64.ShapeCasts S262144x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096_S_d0 : S4096.ReducesTo [0] S_
  gather_S262144x64_S4096x1_S4096x64_1_0_n_n_0_1_164_wf : GatherDims.WF S262144x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S1x262144x3.size a
  hwx0_0 : ∀ i : grid0.Coords, EltTy.bits .f32 = 32 ∨ (Rect.block (s := S1x262144x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S1x262144x3.size a
  hwx0_1 : ∀ i : grid0.Coords, EltTy.bits .f32 = 32 ∨ (Rect.block (s := S1x262144x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x10.size a ≤ S1x262144x10.size a
  hwx0_2 : ∀ i : grid0.Coords, EltTy.bits .f32 = 32 ∨ (Rect.block (s := S1x262144x10) S1x4096x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x10.size a ≤ S1x262144x10.size a
  hwx0_3 : ∀ i : grid0.Coords, EltTy.bits .f32 = 32 ∨ (Rect.block (s := S1x262144x10) S1x4096x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S262144x64_S4096x1_S4096x64_1_0_n_n_0_1_164 : GatherDims S262144x64 S4096x1 S4096x64 where
  offsetDims := [1]
  collapsedSliceDims := [0]
  operandBatchingDims := []
  startIndicesBatchingDims := []
  startIndexMap := [0]
  indexVectorDim := 1
  sliceSizes := ![1, 64]
  wf := gather_S262144x64_S4096x1_S4096x64_1_0_n_n_0_1_164_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4096x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4096x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x262144x3 : Shape := ⟨3, ![1, 262144, 3]⟩
abbrev S1x262144x10 : Shape := ⟨3, ![1, 262144, 10]⟩
abbrev S1x262144x64 : Shape := ⟨3, ![1, 262144, 64]⟩
abbrev S4096 : Shape := ⟨1, ![4096]⟩
abbrev S_ : Shape := ⟨0, ![]⟩
abbrev S1x262144 : Shape := ⟨2, ![1, 262144]⟩
abbrev S1x262144x1 : Shape := ⟨3, ![1, 262144, 1]⟩
abbrev S4096x1 : Shape := ⟨2, ![4096, 1]⟩
abbrev S1x4096x64 : Shape := ⟨3, ![1, 4096, 64]⟩

abbrev nBuf : Space → Nat
  | .hbm => 88
  | .vmem => 0
  | .smem => 0
  | _ => 0

abbrev bufTy : (tb : Table) → Fin (tcTables nBuf tb) → BufTy
  | .hbm, ⟨0, _⟩ => ⟨S1x262144x3, .f32⟩
  | .hbm, ⟨1, _⟩ => ⟨S1x262144x10, .f32⟩
  | .hbm, ⟨2, _⟩ => ⟨S1x262144x3, .f32⟩
  | .hbm, ⟨3, _⟩ => ⟨S1x262144x10, .f32⟩
  | .hbm, ⟨4, _⟩ => ⟨S1x262144x64, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S1x262144x3, .f32⟩
  | .hbm, ⟨9, _⟩ => ⟨S1x262144x3, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x262144, .f32⟩
  | .hbm, ⟨16, _⟩ => ⟨S_, .f32⟩
  | .hbm, ⟨17, _⟩ => ⟨S1x262144, .f32⟩
  | .hbm, ⟨18, _⟩ => ⟨S1x262144, .f32⟩
  | .hbm, ⟨19, _⟩ => ⟨S1x262144x1, .f32⟩
  | .hbm, ⟨20, _⟩ => ⟨S1x262144x10, .f32⟩
  | .hbm, ⟨21, _⟩ => ⟨S1x262144x10, .f32⟩
  | .hbm, ⟨22, _⟩ => ⟨S1x262144x10, .f32⟩
  | .hbm, ⟨23, _⟩ => ⟨S_, .f32⟩
  | .hbm, ⟨24, _⟩ => ⟨S1x262144, .f32⟩
  | .hbm, ⟨25, _⟩ => ⟨S1x262144x1, .f32⟩
  | .hbm, ⟨26, _⟩ => ⟨S1x262144x1, .f32⟩
  | .hbm, ⟨27, _⟩ => ⟨S1x262144x10, .f32⟩
  | .hbm, ⟨28, _⟩ => ⟨S1x262144x10, .f32⟩
  | .hbm, ⟨29, _⟩ => ⟨S1x262144x10, .f32⟩
  | .hbm, ⟨30, _⟩ => ⟨S_, .f32⟩
  | .hbm, ⟨31, _⟩ => ⟨S1x262144, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S1x4096x64, .f32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S1x4096x64, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S1x4096x64, .f32⟩
  | .hbm, ⟨64, _⟩ => ⟨S1x4096x64, .f32⟩
  | .hbm, ⟨65, _⟩ => ⟨S1x4096x64, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S1x4096x64, .f32⟩
  | .hbm, ⟨70, _⟩ => ⟨S1x4096x64, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S1x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v4 : Ref sig .tc := ⟨.hbm, 28, rfl⟩
abbrev main_v5 : Ref sig .tc := ⟨.hbm, 29, rfl⟩
abbrev main_cst_1 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_cst_3 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_10 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call1_cst : Ref sig .tc := ⟨.hbm, 75, rfl⟩
abbrev main_call1_v0 : Ref sig .tc := ⟨.hbm, 76, rfl⟩
abbrev main_v40 : Ref sig .tc := ⟨.hbm, 77, rfl⟩
abbrev main_cst_11 : Ref sig .tc := ⟨.hbm, 78, rfl⟩
abbrev main_v41 : Ref sig .tc := ⟨.hbm, 79, rfl⟩
abbrev main_cst_12 : Ref sig .tc := ⟨.hbm, 80, rfl⟩
abbrev main_v42 : Ref sig .tc := ⟨.hbm, 81, rfl⟩
abbrev main_cst_13 : Ref sig .tc := ⟨.hbm, 82, rfl⟩
abbrev main_v43 : Ref sig .tc := ⟨.hbm, 83, rfl⟩
abbrev main_v44 : Ref sig .tc := ⟨.hbm, 84, rfl⟩
abbrev main_cst_14 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]

class Facts₀ : Prop where
  reducesTo_S1x262144x3_S_d0_1_2 : S1x262144x3.ReducesTo [0, 1, 2] S_
  h_S_ : 0 < S_.numel
  reducesTo_S1x262144x10_S1x262144_d2 : S1x262144x10.ReducesTo [2] S1x262144
  bcast_S_S1x262144 : S_.BroadcastsInDim S1x262144 (![] : Fin 0 → Fin S1x262144.rank)
  bcast_S1x262144_S1x262144x1_0_1 : S1x262144.BroadcastsInDim S1x262144x1 (![0, 1] : Fin 2 → Fin S1x262144x1.rank)
  bcast_S1x262144x1_S1x262144x10_0_1_2 : S1x262144x1.BroadcastsInDim S1x262144x10 (![0, 1, 2] : Fin 3 → Fin S1x262144x10.rank)
  reducesTo_S1x262144_S_d0_1 : S1x262144.ReducesTo [0, 1] S_
  bcast_S_S4096 : S_.BroadcastsInDim S4096 (![] : Fin 0 → Fin S4096.rank)
  bcast_S4096_S4096x1_0 : S4096.BroadcastsInDim S4096x1 (![0] : Fin 1 → Fin S4096x1.rank)
  reducesTo_S1x4096x64_S4096_d0_2 : S1x4096x64.ReducesTo [0, 2] S4096
  reducesTo_S4096_S_d0 : S4096.ReducesTo [0] S_
  gather_S1x262144x64_S4096x1_S1x4096x64_02_1_n_n_1_1_1164_wf : GatherDims.WF S1x262144x64 S4096x1 S1x4096x64 [0, 2] [1] [] [1] [] 1 ![1, 1, 64]

variable [Facts₀]

def gather_S1x262144x64_S4096x1_S1x4096x64_02_1_n_n_1_1_1164 : GatherDims S1x262144x64 S4096x1 S1x4096x64 where
  offsetDims := [0, 2]
  collapsedSliceDims := [1]
  operandBatchingDims := []
  startIndicesBatchingDims := []
  startIndexMap := [1]
  indexVectorDim := 1
  sliceSizes := ![1, 1, 64]
  wf := gather_S1x262144x64_S4096x1_S1x4096x64_02_1_n_n_1_1_1164_wf

class Facts : Prop extends Facts₀ where

variable [Facts]
-- ==== Proof.KernelPieces.lean ====
/-
  What each case of the kernel body leaves in the two accumulators and, at the last grid point, in the two
  outputs, as pure terms of what it loaded.

  The body keeps two one-element accumulators. At every grid point it adds the tile's sum of squared errors to
  the first and the tile's cross-entropy sum to the second; at the first point both are reset to zero before the
  addition; at the last point the two accumulated values are copied to the outputs. So after a point the first
  accumulator holds "what it held, plus the tile's squared-error sum", the second likewise, and the copy at the
  last point is of exactly these two values. Stated for every float instance.
-/
import proofs.«155311_j749_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first point: each accumulator is reset to zero, then receives the tile's sum -/

theorem sq_A (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 : Vec F S1x4096x3 .f32) (x2 x3 : Vec F S1x4096x10 .f32) :
    sout0_A_0 (F := F) c i arg1 harg1 arg2 harg2 arg3 harg3 arg4 harg4 arg5 harg5 arg6 harg6 arg7 harg7 arg8 harg8 hc0 hc1 x0 x1 x2 x3 = k0_pay4 x1 x0 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

theorem ce_A (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 : Vec F S1x4096x3 .f32) (x2 x3 : Vec F S1x4096x10 .f32) :
    sout0_A_1 (F := F) c i arg1 harg1 arg2 harg2 arg3 harg3 arg4 harg4 arg5 harg5 arg6 harg6 arg7 harg7 arg8 harg8 hc0 hc1 x0 x1 x2 x3 = k0_pay1 (k0_pay5 x3 x2) (k0_pay3 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

/-! ## A middle point: each accumulator is what it was plus the tile's sum -/

theorem sq_B (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 : Vec F S1x4096x3 .f32) (x2 x3 : Vec F S1x4096x10 .f32) (xs0 xs1 : Vec F S1x1 .f32) :
    sout0_B_0 (F := F) c i arg1 harg1 arg2 harg2 arg3 harg3 arg4 harg4 arg5 harg5 arg6 harg6 arg7 harg7 arg8 harg8 hc0 hc1 x0 x1 x2 x3 xs0 xs1 = k0_pay4 x1 x0 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

theorem ce_B (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 : Vec F S1x4096x3 .f32) (x2 x3 : Vec F S1x4096x10 .f32) (xs0 xs1 : Vec F S1x1 .f32) :
    sout0_B_1 (F := F) c i arg1 harg1 arg2 harg2 arg3 harg3 arg4 harg4 arg5 harg5 arg6 harg6 arg7 harg7 arg8 harg8 hc0 hc1 x0 x1 x2 x3 xs0 xs1 = k0_pay1 (k0_pay5 x3 x2) xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

/-! ## The last point: the same, and the outputs receive the accumulated values -/

theorem sq_C (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S1x4096x3 .f32) (x2 x3 : Vec F S1x4096x10 .f32) (xs0 xs1 : Vec F S1x1 .f32) :
    sout0_C_0 (F := F) c i arg1 harg1 arg2 harg2 arg3 harg3 arg4 harg4 arg5 harg5 arg6 harg6 arg7 harg7 arg8 harg8 hc0 hc1 x0 x1 x2 x3 xs0 xs1 = k0_pay4 x1 x0 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

theorem ce_C (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S1x4096x3 .f32) (x2 x3 : Vec F S1x4096x10 .f32) (xs0 xs1 : Vec F S1x1 .f32) :
    sout0_C_1 (F := F) c i arg1 harg1 arg2 harg2 arg3 harg3 arg4 harg4 arg5 harg5 arg6 harg6 arg7 harg7 arg8 harg8 hc0 hc1 x0 x1 x2 x3 xs0 xs1 = k0_pay1 (k0_pay5 x3 x2) xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

theorem sqOut_C (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S1x4096x3 .f32) (x2 x3 : Vec F S1x4096x10 .f32) (xs0 xs1 : Vec F S1x1 .f32) :
    out0_C_4 (F := F) c i arg1 harg1 arg2 harg2 arg3 harg3 arg4 harg4 arg5 harg5 arg6 harg6 arg7 harg7 arg8 harg8 hc0 hc1 x0 x1 x2 x3 xs0 xs1 = k0_pay4 x1 x0 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2, View.readCov_unit_zero (S := S1x1) _ hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

theorem ceOut_C (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S1x4096x10 .f32) (harg3 : arg3.IsWhole) (arg4 : Memref sig .tc .vmem S1x4096x10 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S1x4096x3 .f32) (x2 x3 : Vec F S1x4096x10 .f32) (xs0 xs1 : Vec F S1x1 .f32) :
    out0_C_5 (F := F) c i arg1 harg1 arg2 harg2 arg3 harg3 arg4 harg4 arg5 harg5 arg6 harg6 arg7 harg7 arg8 harg8 hc0 hc1 x0 x1 x2 x3 xs0 xs1 = k0_pay1 (k0_pay5 x3 x2) xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2, View.readCov_unit_zero (S := S1x1) _ hz2]
  simp only [View.readAt_eq_ld, harg1.read_unread, harg2.read_unread, harg3.read_unread, harg4.read_unread, harg7.read_unread, harg8.read_unread, View.ld_unit_zero (S := S1x4096x3) hz3, View.ld_unit_zero (S := S1x4096x10) hz3, View.ld_unit_zero (S := S1x1) hz2]

end Cert.KernelIdeal.Pieces

end
-- ==== Proof.KernelTile.lean ====
/-
  The kernel body's arithmetic on one tile, read on the extended reals.

  One tile is 4096 rows. The image part squares the difference of the two image blocks and sums it over the 3
  channels and then over the rows; the segmentation part takes each row's maximum `M`, shifts the row by it,
  and sums `g · ((x − M) − log ∑ exp (x − M))` over the 10 classes and then over the rows. Each accumulator
  step adds such a tile sum to what the accumulator held.
-/
import proofs.«155311_j749_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-- A `[1, 1]` array has one index. -/
theorem idx11 (j : S1x1.Idx) : j = ix2 (0 : Fin 1) (0 : Fin 1) := by
  funext a
  match a with
  | ⟨0, h⟩ => exact Fin.ext (Nat.lt_one_iff.mp (j ⟨0, h⟩).isLt)
  | ⟨1, h⟩ => exact Fin.ext (Nat.lt_one_iff.mp (j ⟨1, h⟩).isLt)

/-- A `[1]` array has one index. -/
theorem idx1 (j : S1.Idx) : j = ix1 (0 : Fin 1) := by
  funext a
  match a with
  | ⟨0, h⟩ => exact Fin.ext (Nat.lt_one_iff.mp (j ⟨0, h⟩).isLt)

/-- Summing a `[1, 4096, C]` block over its last axis reads row `n` at `(0, n, c)`. -/
theorem lift_last {C : Nat} (h : (⟨3, ![1, 4096, C]⟩ : Shape).Reduces [2] ⟨2, ![1, 4096]⟩) (n : Fin 4096) (c : Fin C) :
    h.lift (ix2 (0 : Fin 1) n) c = ix3 (0 : Fin 1) n c := by
  funext a
  match a with
  | ⟨0, _⟩ => rfl
  | ⟨1, _⟩ => rfl
  | ⟨2, _⟩ => rfl

/-- Summing a `[1, 4096]` array over its rows reads it at `(0, n)`. -/
theorem lift_rows (h : (⟨2, ![1, 4096]⟩ : Shape).Reduces [1] ⟨1, ![1]⟩) (n : Fin 4096) :
    h.lift (ix1 (0 : Fin 1)) n = ix2 (0 : Fin 1) n := by
  funext a
  match a with
  | ⟨0, _⟩ => rfl
  | ⟨1, _⟩ => rfl

/-- A per-row value, recast as a column and broadcast along the classes, is the row's value at every class. -/
theorem column_apply {α : Type} (x : S1x4096.Idx → α) (hs : S1x4096.ShapeCasts S1x4096x1)
    (hb : S1x4096x1.Broadcasts S1x4096x10) (n : Fin 4096) (c : Fin 10) :
    broadcastTo S1x4096x10 (shapeCast S1x4096x1 x hs) hb (ix3 (0 : Fin 1) n c) = x (ix2 (0 : Fin 1) n) := by
  refine (broadcastTo_apply _ hb (ix3 (0 : Fin 1) n c) (ix3 (0 : Fin 1) n (0 : Fin 1)) (fun a => ?_)).trans ?_
  · match a with
    | ⟨0, _⟩ => rfl
    | ⟨1, _⟩ => rfl
    | ⟨2, _⟩ => rfl
  · refine shapeCast_apply x hs (ix3 (0 : Fin 1) n (0 : Fin 1)) (ix2 (0 : Fin 1) n) ?_
    rw [Shape.rowMajor_val_two, Shape.rowMajor_val_three]
    show 0 * 4096 + n.val = (0 * 4096 + n.val) * 1 + 0
    omega

/-- A one-element vector recast as a `[1, 1]` array. -/
theorem scalar_cast_apply {α : Type} (x : S1.Idx → α) (hs : S1.ShapeCasts S1x1) :
    shapeCast S1x1 x hs (ix2 (0 : Fin 1) (0 : Fin 1)) = x (ix1 (0 : Fin 1)) := by
  refine shapeCast_apply x hs (ix2 (0 : Fin 1) (0 : Fin 1)) (ix1 (0 : Fin 1)) ?_
  rw [Shape.rowMajor_val_one, Shape.rowMajor_val_two]
  rfl

/-- A sum over the last axis of a `[1, 4096, C]` block, read at row `n`. -/
theorem reduce_last_apply {C : Nat} (src : FVec Ideal ⟨3, ![1, 4096, C]⟩ .f32) (acc : BitVec 32)
    (h : (⟨3, ![1, 4096, C]⟩ : Shape).Reduces [2] ⟨2, ![1, 4096]⟩) (hφ : FKind.Formats .f32)
    (hacc : acc = FKind.add.neutral .f32 hφ) (n : Fin 4096) :
    multiReduction .add [2] ⟨2, ![1, 4096]⟩ src acc h hφ hacc (ix2 (0 : Fin 1) n) = ∑ c : Fin C, src (ix3 (0 : Fin 1) n c) :=
  (Ideal.multiReduction_add_single src acc h hφ hacc (ix2 (0 : Fin 1) n)).trans
    (Finset.sum_congr rfl fun c _ => congrArg src (lift_last h n c))

/-- A sum over the rows of a `[1, 4096]` array. -/
theorem reduce_rows_apply (src : FVec Ideal ⟨2, ![1, 4096]⟩ .f32) (acc : BitVec 32)
    (h : (⟨2, ![1, 4096]⟩ : Shape).Reduces [1] ⟨1, ![1]⟩) (hφ : FKind.Formats .f32)
    (hacc : acc = FKind.add.neutral .f32 hφ) :
    multiReduction .add [1] ⟨1, ![1]⟩ src acc h hφ hacc (ix1 (0 : Fin 1)) = ∑ n : Fin 4096, src (ix2 (0 : Fin 1) n) :=
  (Ideal.multiReduction_add_single src acc h hφ hacc (ix1 (0 : Fin 1))).trans
    (Finset.sum_congr rfl fun n _ => congrArg src (lift_rows h n))

/-- The tile's squared-error sum. -/
def sqTile (out gt : FVec Ideal S1x4096x3 .f32) : EReal :=
  ∑ n : Fin 4096, ∑ c : Fin 3,
    (out (ix3 (0 : Fin 1) n c) - gt (ix3 (0 : Fin 1) n c)) * (out (ix3 (0 : Fin 1) n c) - gt (ix3 (0 : Fin 1) n c))

/-- The image accumulator's step: what it held plus the tile's squared-error sum. -/
theorem sqAcc_apply (out gt : FVec Ideal S1x4096x3 .f32) (acc : FVec Ideal S1x1 .f32) (j : S1x1.Idx) :
    k0_pay4 (F := Ideal) out gt acc j = acc (ix2 (0 : Fin 1) (0 : Fin 1)) + sqTile out gt := by
  obtain rfl := idx11 j
  unfold k0_pay4
  (try dsimp only)
  rw [shapeCast_self]
  refine congrArg (fun z => acc (ix2 (0 : Fin 1) (0 : Fin 1)) + z) ?_
  refine (scalar_cast_apply _ _).trans ?_
  refine (reduce_rows_apply _ _ _ _ _).trans ?_
  refine Finset.sum_congr rfl fun n _ => ?_
  exact reduce_last_apply _ _ _ _ _ n

/-- A row's maximum within the tile, folded from the pattern of `−∞`. -/
def rowMaxT (x : FVec Ideal S1x4096x10 .f32) (n : Fin 4096) : EReal :=
  (Finset.univ : Finset (Fin 10)).fold max (Ideal.ofBits .f32 0xFF800000#32) fun c => x (ix3 (0 : Fin 1) n c)

/-- The body's row maximum is that fold. -/
theorem rowMax_apply (x : FVec Ideal S1x4096x10 .f32) (hr : S1x4096x10.Reduces [2] S1x4096) (hφ : FKind.Formats .f32)
    (ha : (0xFF800000#32 : BitVec 32) = FKind.maximumf.neutral .f32 hφ) (n : Fin 4096) :
    multiReduction .maximumf [2] S1x4096 x 0xFF800000#32 hr hφ ha (ix2 (0 : Fin 1) n) = rowMaxT x n := by
  refine (Ideal.multiReduction_maximumf_single x _ hr hφ ha (ix2 (0 : Fin 1) n)).trans ?_
  unfold rowMaxT
  refine congrArg (Finset.fold max (Ideal.ofBits .f32 0xFF800000#32) · Finset.univ) ?_
  funext c'
  exact congrArg x (lift_last hr n c')

/-- The row shifted by its maximum, at `(n, c)`. -/
theorem shifted_apply (x : FVec Ideal S1x4096x10 .f32) (hr : S1x4096x10.Reduces [2] S1x4096) (hφ : FKind.Formats .f32)
    (ha : (0xFF800000#32 : BitVec 32) = FKind.maximumf.neutral .f32 hφ) (hs : S1x4096.ShapeCasts S1x4096x1)
    (hb : S1x4096x1.Broadcasts S1x4096x10) (n : Fin 4096) (c : Fin 10) :
    subf x (broadcastTo S1x4096x10 (shapeCast S1x4096x1 (multiReduction .maximumf [2] S1x4096 x 0xFF800000#32 hr hφ ha) hs) hb)
        (ix3 (0 : Fin 1) n c)
      = x (ix3 (0 : Fin 1) n c) - rowMaxT x n :=
  congrArg (fun z => x (ix3 (0 : Fin 1) n c) - z) ((column_apply _ hs hb n c).trans (rowMax_apply x hr hφ ha n))

/-- The tile's cross-entropy sum (not yet negated). -/
def ceTile (x g : FVec Ideal S1x4096x10 .f32) : EReal :=
  ∑ n : Fin 4096, ∑ c : Fin 10,
    g (ix3 (0 : Fin 1) n c) * ((x (ix3 (0 : Fin 1) n c) - rowMaxT x n)
      - Ideal.log (∑ c' : Fin 10, Ideal.exp (x (ix3 (0 : Fin 1) n c') - rowMaxT x n)))

/-- The body's cross-entropy payload is the tile's sum. -/
theorem ce_apply (x g : FVec Ideal S1x4096x10 .f32) :
    k0_pay5 (F := Ideal) x g (ix1 (0 : Fin 1)) = ceTile x g := by
  unfold k0_pay5
  (try dsimp only)
  refine (reduce_rows_apply _ _ _ _ _).trans ?_
  refine Finset.sum_congr rfl fun n _ => ?_
  refine (reduce_last_apply _ _ _ _ _ n).trans ?_
  refine Finset.sum_congr rfl fun c _ => ?_
  rw [mulf_apply, subf_apply]
  refine congrArg₂ (fun a b => g (ix3 (0 : Fin 1) n c) * (a - b)) (shifted_apply x _ _ _ _ _ n c) ?_
  refine (column_apply _ _ _ n c).trans ?_
  show Ideal.log _ = Ideal.log _
  refine congrArg Ideal.log ?_
  refine (reduce_last_apply _ _ _ _ _ n).trans ?_
  refine Finset.sum_congr rfl fun c' _ => ?_
  show Ideal.exp _ = Ideal.exp _
  exact congrArg Ideal.exp (shifted_apply x _ _ _ _ _ n c')

/-- The segmentation accumulator's step: what it held plus the tile's cross-entropy sum. -/
theorem ceAcc_apply (x g : FVec Ideal S1x4096x10 .f32) (acc : FVec Ideal S1x1 .f32) (j : S1x1.Idx) :
    k0_pay1 (F := Ideal) (k0_pay5 (F := Ideal) x g) acc j = acc (ix2 (0 : Fin 1) (0 : Fin 1)) + ceTile x g := by
  obtain rfl := idx11 j
  unfold k0_pay1
  (try dsimp only)
  rw [shapeCast_self]
  refine congrArg (fun z => acc (ix2 (0 : Fin 1) (0 : Fin 1)) + z) ?_
  exact (scalar_cast_apply _ _).trans (ce_apply x g)

/-- The reset value of either accumulator is zero. -/
theorem reset_sq (j : S1x1.Idx) : k0_pay2 (F := Ideal) j = 0 := by
  unfold k0_pay2
  (try dsimp only)
  rw [shapeCast_self]
  exact Ideal.ofBits_zero_f32

theorem reset_ce (j : S1x1.Idx) : k0_pay3 (F := Ideal) j = 0 := by
  unfold k0_pay3
  (try dsimp only)
  rw [shapeCast_self]
  exact Ideal.ofBits_zero_f32

end Cert.KernelIdeal.Tile

end
-- ==== Proof.LibSums.lean ====
/-
  Finite sums over the index sets of literal array shapes, regrouped.

  A sum over every index of a rank-3 (rank-2) array is the iterated sum over its coordinates; a sum over
  `T * B` consecutive rows is the sum over `T` tiles of the sum over the `B` rows of each tile (row
  `B * t + j` is row `j` of tile `t`). Addition in a commutative monoid is all that is used, so the
  statements hold on the extended reals with no finiteness assumption.
-/
import Idealize.ShloMosaic.Lib.ValueIdx

noncomputable section

open scoped BigOperators

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `j` of tile `t`, among `T * B` rows: row `B * t + j`. -/
theorem tile_row_lt {T B : Nat} (t : Fin T) (j : Fin B) : B * t.val + j.val < T * B :=
  calc B * t.val + j.val < B * t.val + B := Nat.add_lt_add_left j.isLt _
    _ = B * (t.val + 1) := (Nat.mul_succ _ _).symm
    _ ≤ B * T := Nat.mul_le_mul_left _ t.isLt
    _ = T * B := Nat.mul_comm _ _

/-- A sum over `T * B` rows is the sum over the tiles of the sum over each tile's rows. -/
theorem sum_tiles {M : Type*} [AddCommMonoid M] (T B : Nat) (g : Fin (T * B) → M) :
    ∑ n, g n = ∑ t : Fin T, ∑ j : Fin B, g ⟨B * t.val + j.val, tile_row_lt t j⟩ := by
  rw [← Equiv.sum_comp finProdFinEquiv g, Fintype.sum_prod_type]
  refine Finset.sum_congr rfl fun t _ => Finset.sum_congr rfl fun j _ => congrArg g (Fin.ext ?_)
  show j.val + B * t.val = B * t.val + j.val
  exact Nat.add_comm _ _

/-- The same over `N` rows, `N = T * B`. -/
theorem sum_tiles_of_eq {M : Type*} [AddCommMonoid M] (T B N : Nat) (h : T * B = N) (g : Fin N → M) :
    ∑ n, g n = ∑ t : Fin T, ∑ j : Fin B, g ⟨B * t.val + j.val, h ▸ tile_row_lt t j⟩ := by
  subst h; exact sum_tiles T B g

end Cert.Sums

end
-- ==== Proof.Spec.lean ====
/-
  What the loss is, as a function of the argument arrays on the extended reals.

  The image term: the squared error `(out − gt)²` summed over all `262144 × 3` entries, here grouped as 64
  tiles of 4096 consecutive rows. The segmentation term: per row `n` the cross entropy
  `∑_c gt[n, c] · logp[n, c]` with `logp[n, c] = (x[n, c] − M_n) − log ∑_c' exp (x[n, c'] − M_n)`, `M_n` the
  row's maximum, summed over the rows, again by tiles. The triplet term reads rows of the feature array at
  integer indices: a negative index is shifted up by the number of rows, and the row read is that index
  clamped into the array; the squared distance of two such rows is the sum over the 64 features.

  The two regrouping laws at the end say that the sum over every index of a `[1, 262144, C]` (or
  `[1, 262144]`) array is the sum over the tiles: only commutativity and associativity of `+` are used.
-/
import Idealize.ShloMosaic.Lib.ValueIdx
import Idealize.ShloMosaic.PureOps.Ideal.Laws
import proofs.«155311_j749_1_alg».proof.Proof.LibSums

noncomputable section

open scoped BigOperators

namespace Cert.Spec

open Idealize.ShloMosaic Idealize.ShloMosaic.ValueIdx

abbrev Img := FVec Ideal ⟨3, ![1, 262144, 3]⟩ .f32
abbrev Seg := FVec Ideal ⟨3, ![1, 262144, 10]⟩ .f32
abbrev Feat := FVec Ideal ⟨3, ![1, 262144, 64]⟩ .f32
abbrev Ids := IVec ⟨1, ![4096]⟩ 32

/-- Row `j` of tile `t`: row `4096 · t + j` of the array (taken modulo the row count, so that it is a row for
    every natural `t`; for `t < 64` nothing wraps). -/
def row (t : ℕ) (j : Fin 4096) : Fin 262144 := ⟨(4096 * t + j.val) % 262144, Nat.mod_lt _ (by decide)⟩

theorem row_val {t : ℕ} (ht : t < 64) (j : Fin 4096) : (row t j).val = 4096 * t + j.val :=
  Nat.mod_eq_of_lt (by have := j.isLt; omega)

/-! ## The image term -/

/-- The squared error of one entry. -/
def sqErr (gt out : Img) (n : Fin 262144) (c : Fin 3) : EReal :=
  (out (ix3 (0 : Fin 1) n c) - gt (ix3 (0 : Fin 1) n c)) * (out (ix3 (0 : Fin 1) n c) - gt (ix3 (0 : Fin 1) n c))

/-- One tile's sum of squared errors. -/
def tileSq (gt out : Img) (t : ℕ) : EReal := ∑ j : Fin 4096, ∑ c : Fin 3, sqErr gt out (row t j) c

/-- The sum of squared errors over the tiles `0 … n − 1`. -/
def sqUpTo (gt out : Img) (n : ℕ) : EReal := ∑ t ∈ Finset.range n, tileSq gt out t

/-! ## The segmentation term -/

/-- A row's maximum, folded from the pattern of `−∞`. -/
def rowMax (x : Seg) (n : Fin 262144) : EReal :=
  (Finset.univ : Finset (Fin 10)).fold max (Ideal.ofBits .f32 0xFF800000#32) fun c => x (ix3 (0 : Fin 1) n c)

/-- The log-softmax of entry `(n, c)`, shifted by the row's maximum. -/
def logp (x : Seg) (n : Fin 262144) (c : Fin 10) : EReal :=
  (x (ix3 (0 : Fin 1) n c) - rowMax x n)
    - Ideal.log (∑ c' : Fin 10, Ideal.exp (x (ix3 (0 : Fin 1) n c') - rowMax x n))

/-- A row's cross entropy against the targets `g` (not yet negated). -/
def rowCe (g x : Seg) (n : Fin 262144) : EReal := ∑ c : Fin 10, g (ix3 (0 : Fin 1) n c) * logp x n c

/-- One tile's sum of the rows' cross entropies. -/
def tileCe (g x : Seg) (t : ℕ) : EReal := ∑ j : Fin 4096, rowCe g x (row t j)

/-- Their sum over the tiles `0 … n − 1`. -/
def ceUpTo (g x : Seg) (n : ℕ) : EReal := ∑ t ∈ Finset.range n, tileCe g x t

/-! ## The triplet term -/

/-- An index as the gather reads it: a negative one shifted up by the number of rows. -/
def normIdx (v : BitVec 32) : BitVec 32 :=
  Scalar.select (IntOp.cmpi .slt v 0#32) (IntOp.addi v 262144#32) v

/-- The row a start index selects: read signed, clamped into the array. -/
def clampRow (v : BitVec 32) : Fin 262144 := ⟨min v.toInt.toNat (262144 - 1), by omega⟩

/-- Feature `d` of the row triplet `j` of the index array `ids` selects. -/
def featAt (f : Feat) (ids : Ids) (j : Fin 4096) (d : Fin 64) : EReal :=
  f (ix3 (0 : Fin 1) (clampRow (normIdx (ids (ix1 j)))) d)

/-- The squared distance of the two rows triplet `j` selects through `a` and through `b`. -/
def dist2 (f : Feat) (a b : Ids) (j : Fin 4096) : EReal :=
  ∑ d : Fin 64, (featAt f a j d - featAt f b j d) * (featAt f a j d - featAt f b j d)

/-! ## Sums over every index, by tiles -/

theorem sum_all_eq_tiles3 {C : ℕ} (f : (⟨3, ![1, 262144, C]⟩ : Shape).Idx → EReal) :
    ∑ i, f i = ∑ t ∈ Finset.range 64, ∑ j : Fin 4096, ∑ c : Fin C, f (ix3 (0 : Fin 1) (row t j) c) := by
  rw [Cert.Sums.sum_idx3, Fin.sum_univ_one,
    Cert.Sums.sum_tiles_of_eq 64 4096 262144 (by decide) fun n => ∑ c : Fin C, f (ix3 (0 : Fin 1) n c),
    Finset.sum_range fun t => ∑ j : Fin 4096, ∑ c : Fin C, f (ix3 (0 : Fin 1) (row t j) c)]
  refine Finset.sum_congr rfl fun t _ => Finset.sum_congr rfl fun j _ => ?_
  have e : (⟨4096 * t.val + j.val, (by decide : 64 * 4096 = 262144) ▸ Cert.Sums.tile_row_lt t j⟩ : Fin 262144) = row t.val j :=
    Fin.ext (row_val t.isLt j).symm
  rw [e]

theorem sum_all_eq_tiles2 (f : (⟨2, ![1, 262144]⟩ : Shape).Idx → EReal) :
    ∑ i, f i = ∑ t ∈ Finset.range 64, ∑ j : Fin 4096, f (ix2 (0 : Fin 1) (row t j)) := by
  rw [sum_idx2, Fin.sum_univ_one,
    Cert.Sums.sum_tiles_of_eq 64 4096 262144 (by decide) fun n => f (ix2 (0 : Fin 1) n),
    Finset.sum_range fun t => ∑ j : Fin 4096, f (ix2 (0 : Fin 1) (row t j))]
  refine Finset.sum_congr rfl fun t _ => Finset.sum_congr rfl fun j _ => ?_
  have e : (⟨4096 * t.val + j.val, (by decide : 64 * 4096 = 262144) ▸ Cert.Sums.tile_row_lt t j⟩ : Fin 262144) = row t.val j :=
    Fin.ext (row_val t.isLt j).symm
  rw [e]

/-! ## Two facts about the literals -/

/-- The row count as a float: the pattern denotes the real `262144`. -/
theorem ofBits_rows : Ideal.ofBits .f32 0x48800000#32 = ((262144 : ℝ) : EReal) := by
  simp [Ideal.ofBits, Ideal.ieee, -EReal.coe_mul]; norm_num

/-- Dividing the negated sum by the row count is negating the quotient. -/
theorem div_neg_rows (x : EReal) :
    Ideal.div (-x) (Ideal.ofBits .f32 0x48800000#32) = -(Ideal.div x (Ideal.ofBits .f32 0x48800000#32)) := by
  rw [ofBits_rows, Ideal.div_coe (by norm_num : (262144 : ℝ) ≠ 0), Ideal.div_coe (by norm_num : (262144 : ℝ) ≠ 0), EReal.neg_mul]

end Cert.Spec

end
-- ==== Proof.KernelAcc.lean ====
/-
  The accumulators point by point, and what the two outputs hold after the run.

  Grid point `t` is handed rows `4096 · t … 4096 · t + 4095` of each of the four arrays. After point `t` the
  first accumulator holds the squared-error sums of tiles `0 … t`, the second their cross-entropy sums: at the
  first point both start from zero, at every later point from what the point before left. The last point copies
  both into the outputs, whose one block is the whole `[1, 1]` array; so after the run the outputs hold the sums
  over all 64 tiles.
-/
import proofs.«155311_j749_1_alg».proof.Proof.Gen.KernelIdeal.Frame
import proofs.«155311_j749_1_alg».proof.Proof.KernelPieces
import proofs.«155311_j749_1_alg».proof.Proof.KernelTile
import proofs.«155311_j749_1_alg».proof.Proof.Spec

set_option maxRecDepth 16384

noncomputable section

open scoped BigOperators

namespace Cert.KernelIdeal.Acc

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-! ## The arrays and the blocks, at their literal types -/

abbrev gtImg (c : Dev nD) : Spec.Img := V m c main_arg0
abbrev outImg (c : Dev nD) : Spec.Img := V m c main_arg2
abbrev gtSeg (c : Dev nD) : Spec.Seg := V m c main_arg1
abbrev xSeg (c : Dev nD) : Spec.Seg := V m c main_arg3

abbrev gtBlk (c : Dev nD) (t : Fin cfg0.N) : FVec Ideal S1x4096x3 .f32 := iblk m c 0 t
abbrev outBlk (c : Dev nD) (t : Fin cfg0.N) : FVec Ideal S1x4096x3 .f32 := iblk m c 1 t
abbrev gsBlk (c : Dev nD) (t : Fin cfg0.N) : FVec Ideal S1x4096x10 .f32 := iblk m c 2 t
abbrev xsBlk (c : Dev nD) (t : Fin cfg0.N) : FVec Ideal S1x4096x10 .f32 := iblk m c 3 t

/-- Every window's block index at point `t` is `(0, t, 0)`. -/
theorem widx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem widx1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem widx2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)
theorem widx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

/-! ## A block's entry `(n, ch)` is the array's at row `4096 · t + n` -/

theorem gtBlk_apply (c : Dev nD) (t : Fin cfg0.N) (n : Fin 4096) (ch : Fin 3) :
    gtBlk m c t (ix3 (0 : Fin 1) n ch) = gtImg m c (ix3 (0 : Fin 1) (Spec.row t.val n) ch) := by
  have ht : t.val < 64 := lt_of_lt_of_eq t.isLt (show cfg0.N = 64 from N_0)
  unfold gtBlk iblk
  rw [View.read_apply]
  show V m c main_arg0 _ = V m c main_arg0 _
  congr 1
  funext a
  apply Fin.ext
  match a with
  | ⟨0, _⟩ => show win0_0.index t 0 * 1 + 1 * 0 = 0; rw [(widx0 t).1]
  | ⟨1, _⟩ => show win0_0.index t 1 * 4096 + 1 * n.val = (Spec.row t.val n).val; rw [(widx0 t).2.1, Spec.row_val ht]; omega
  | ⟨2, _⟩ => show win0_0.index t 2 * 3 + 1 * ch.val = ch.val; rw [(widx0 t).2.2]; omega

theorem outBlk_apply (c : Dev nD) (t : Fin cfg0.N) (n : Fin 4096) (ch : Fin 3) :
    outBlk m c t (ix3 (0 : Fin 1) n ch) = outImg m c (ix3 (0 : Fin 1) (Spec.row t.val n) ch) := by
  have ht : t.val < 64 := lt_of_lt_of_eq t.isLt (show cfg0.N = 64 from N_0)
  unfold outBlk iblk
  rw [View.read_apply]
  show V m c main_arg2 _ = V m c main_arg2 _
  congr 1
  funext a
  apply Fin.ext
  match a with
  | ⟨0, _⟩ => show win0_1.index t 0 * 1 + 1 * 0 = 0; rw [(widx1 t).1]
  | ⟨1, _⟩ => show win0_1.index t 1 * 4096 + 1 * n.val = (Spec.row t.val n).val; rw [(widx1 t).2.1, Spec.row_val ht]; omega
  | ⟨2, _⟩ => show win0_1.index t 2 * 3 + 1 * ch.val = ch.val; rw [(widx1 t).2.2]; omega

theorem gsBlk_apply (c : Dev nD) (t : Fin cfg0.N) (n : Fin 4096) (ch : Fin 10) :
    gsBlk m c t (ix3 (0 : Fin 1) n ch) = gtSeg m c (ix3 (0 : Fin 1) (Spec.row t.val n) ch) := by
  have ht : t.val < 64 := lt_of_lt_of_eq t.isLt (show cfg0.N = 64 from N_0)
  unfold gsBlk iblk
  rw [View.read_apply]
  show V m c main_arg1 _ = V m c main_arg1 _
  congr 1
  funext a
  apply Fin.ext
  match a with
  | ⟨0, _⟩ => show win0_2.index t 0 * 1 + 1 * 0 = 0; rw [(widx2 t).1]
  | ⟨1, _⟩ => show win0_2.index t 1 * 4096 + 1 * n.val = (Spec.row t.val n).val; rw [(widx2 t).2.1, Spec.row_val ht]; omega
  | ⟨2, _⟩ => show win0_2.index t 2 * 10 + 1 * ch.val = ch.val; rw [(widx2 t).2.2]; omega

theorem xsBlk_apply (c : Dev nD) (t : Fin cfg0.N) (n : Fin 4096) (ch : Fin 10) :
    xsBlk m c t (ix3 (0 : Fin 1) n ch) = xSeg m c (ix3 (0 : Fin 1) (Spec.row t.val n) ch) := by
  have ht : t.val < 64 := lt_of_lt_of_eq t.isLt (show cfg0.N = 64 from N_0)
  unfold xsBlk iblk
  rw [View.read_apply]
  show V m c main_arg3 _ = V m c main_arg3 _
  congr 1
  funext a
  apply Fin.ext
  match a with
  | ⟨0, _⟩ => show win0_3.index t 0 * 1 + 1 * 0 = 0; rw [(widx3 t).1]
  | ⟨1, _⟩ => show win0_3.index t 1 * 4096 + 1 * n.val = (Spec.row t.val n).val; rw [(widx3 t).2.1, Spec.row_val ht]; omega
  | ⟨2, _⟩ => show win0_3.index t 2 * 10 + 1 * ch.val = ch.val; rw [(widx3 t).2.2]; omega

/-! ## A tile's sums, over the arrays -/

theorem sqTile_eq (c : Dev nD) (t : Fin cfg0.N) :
    Tile.sqTile (outBlk m c t) (gtBlk m c t) = Spec.tileSq (gtImg m c) (outImg m c) t.val := by
  unfold Tile.sqTile Spec.tileSq Spec.sqErr
  refine Finset.sum_congr rfl fun n _ => Finset.sum_congr rfl fun ch _ => ?_
  rw [outBlk_apply, gtBlk_apply]

theorem rowMax_eq (c : Dev nD) (t : Fin cfg0.N) (n : Fin 4096) :
    Tile.rowMaxT (xsBlk m c t) n = Spec.rowMax (xSeg m c) (Spec.row t.val n) := by
  unfold Tile.rowMaxT Spec.rowMax
  refine congrArg (Finset.fold max (Ideal.ofBits .f32 0xFF800000#32) · Finset.univ) ?_
  funext ch
  exact xsBlk_apply m c t n ch

theorem ceTile_eq (c : Dev nD) (t : Fin cfg0.N) :
    Tile.ceTile (xsBlk m c t) (gsBlk m c t) = Spec.tileCe (gtSeg m c) (xSeg m c) t.val := by
  unfold Tile.ceTile Spec.tileCe Spec.rowCe Spec.logp
  refine Finset.sum_congr rfl fun n _ => Finset.sum_congr rfl fun ch _ => ?_
  rw [gsBlk_apply, xsBlk_apply, rowMax_eq]
  refine congrArg (fun z => gtSeg m c (ix3 (0 : Fin 1) (Spec.row t.val n) ch)
    * ((xSeg m c (ix3 (0 : Fin 1) (Spec.row t.val n) ch) - Spec.rowMax (xSeg m c) (Spec.row t.val n)) - Ideal.log z)) ?_
  refine Finset.sum_congr rfl fun ch' _ => ?_
  rw [xsBlk_apply]

/-! ## One point's step -/

/-- What the point before `t` left in the two accumulators. -/
abbrev prevSq (c : Dev nD) (t : Fin cfg0.N) : FVec Ideal S1x1 .f32 :=
  (outsAt0 m c (t.val - 1) (Nat.lt_of_le_of_lt (Nat.sub_le _ _) t.isLt)).2.2.1
abbrev prevCe (c : Dev nD) (t : Fin cfg0.N) : FVec Ideal S1x1 .f32 :=
  (outsAt0 m c (t.val - 1) (Nat.lt_of_le_of_lt (Nat.sub_le _ _) t.isLt)).2.2.2

/-- After point `t` the image accumulator holds the tile's sum, over zero at the first point and over what the
    point before left at a later one. -/
theorem sq_step (c : Dev nD) (t : Fin cfg0.N) (j : S1x1.Idx) :
    (outsAt0 m c t.val t.isLt).2.2.1 j
      = (if t.val = 0 then 0 else prevSq m c t (ix2 (0 : Fin 1) (0 : Fin 1))) + Spec.tileSq (gtImg m c) (outImg m c) t.val := by
  have hN : t.val < 64 := lt_of_lt_of_eq t.isLt (show cfg0.N = 64 from N_0)
  rw [← sqTile_eq]
  by_cases h0 : t.val % 64 = 0
  · have h1 : ¬t.val % 64 = 63 := by omega
    rw [outsAt0_A m c t h0 h1]; dsimp only
    refine (congrFun (Pieces.sq_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (gtBlk m c t) (outBlk m c t) (gsBlk m c t) (xsBlk m c t)) j).trans ?_
    rw [Tile.sqAcc_apply, Tile.reset_sq, if_pos (by omega)]
  · by_cases h1 : t.val % 64 = 63
    · rw [outsAt0_C m c t h0 h1]; dsimp only
      refine (congrFun (Pieces.sq_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (gtBlk m c t) (outBlk m c t) (gsBlk m c t) (xsBlk m c t) (prevSq m c t) (prevCe m c t)) j).trans ?_
      rw [Tile.sqAcc_apply, if_neg (by omega)]
    · rw [outsAt0_B m c t h0 h1]; dsimp only
      refine (congrFun (Pieces.sq_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (gtBlk m c t) (outBlk m c t) (gsBlk m c t) (xsBlk m c t) (prevSq m c t) (prevCe m c t)) j).trans ?_
      rw [Tile.sqAcc_apply, if_neg (by omega)]

/-- The same for the segmentation accumulator. -/
theorem ce_step (c : Dev nD) (t : Fin cfg0.N) (j : S1x1.Idx) :
    (outsAt0 m c t.val t.isLt).2.2.2 j
      = (if t.val = 0 then 0 else prevCe m c t (ix2 (0 : Fin 1) (0 : Fin 1))) + Spec.tileCe (gtSeg m c) (xSeg m c) t.val := by
  have hN : t.val < 64 := lt_of_lt_of_eq t.isLt (show cfg0.N = 64 from N_0)
  rw [← ceTile_eq]
  by_cases h0 : t.val % 64 = 0
  · have h1 : ¬t.val % 64 = 63 := by omega
    rw [outsAt0_A m c t h0 h1]; dsimp only
    refine (congrFun (Pieces.ce_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (gtBlk m c t) (outBlk m c t) (gsBlk m c t) (xsBlk m c t)) j).trans ?_
    rw [Tile.ceAcc_apply, Tile.reset_ce, if_pos (by omega)]
  · by_cases h1 : t.val % 64 = 63
    · rw [outsAt0_C m c t h0 h1]; dsimp only
      refine (congrFun (Pieces.ce_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (gtBlk m c t) (outBlk m c t) (gsBlk m c t) (xsBlk m c t) (prevSq m c t) (prevCe m c t)) j).trans ?_
      rw [Tile.ceAcc_apply, if_neg (by omega)]
    · rw [outsAt0_B m c t h0 h1]; dsimp only
      refine (congrFun (Pieces.ce_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (gtBlk m c t) (outBlk m c t) (gsBlk m c t) (xsBlk m c t) (prevSq m c t) (prevCe m c t)) j).trans ?_
      rw [Tile.ceAcc_apply, if_neg (by omega)]

/-! ## The accumulators after every point -/

theorem sq_inv (c : Dev nD) : ∀ (n : ℕ) (h : n < cfg0.N) (j : S1x1.Idx),
    (outsAt0 m c n h).2.2.1 j = Spec.sqUpTo (gtImg m c) (outImg m c) (n + 1)
  | 0, h, j => by
    rw [sq_step m c ⟨0, h⟩ j, if_pos rfl, zero_add]
    unfold Spec.sqUpTo; rw [Finset.sum_range_one]
  | n + 1, h, j => by
    rw [sq_step m c ⟨n + 1, h⟩ j, if_neg (Nat.succ_ne_zero n)]
    show (outsAt0 m c n _).2.2.1 _ + _ = _
    rw [sq_inv c n]
    unfold Spec.sqUpTo; rw [Finset.sum_range_succ _ (n + 1)]

theorem ce_inv (c : Dev nD) : ∀ (n : ℕ) (h : n < cfg0.N) (j : S1x1.Idx),
    (outsAt0 m c n h).2.2.2 j = Spec.ceUpTo (gtSeg m c) (xSeg m c) (n + 1)
  | 0, h, j => by
    rw [ce_step m c ⟨0, h⟩ j, if_pos rfl, zero_add]
    unfold Spec.ceUpTo; rw [Finset.sum_range_one]
  | n + 1, h, j => by
    rw [ce_step m c ⟨n + 1, h⟩ j, if_neg (Nat.succ_ne_zero n)]
    show (outsAt0 m c n _).2.2.2 _ + _ = _
    rw [ce_inv c n]
    unfold Spec.ceUpTo; rw [Finset.sum_range_succ _ (n + 1)]

end Cert.KernelIdeal.Acc

end
-- ==== Proof.KernelOut.lean ====
/-
  The two outputs after the run.

  Only the last grid point writes the outputs back, and there the body has just copied the two accumulators into
  them; each output's one block is its whole `[1, 1]` array. So after the run output 0 holds the squared-error
  sum over all 64 tiles and output 1 the cross-entropy sum over all 64 tiles.
-/
import proofs.«155311_j749_1_alg».proof.Proof.KernelAcc

set_option maxRecDepth 16384

noncomputable section

open scoped BigOperators

namespace Cert.KernelIdeal.Acc

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-- The squared-error sum over the whole arrays, as the contents of output 0's array. -/
abbrev sqArr (c : Dev nD) : Buf (Elt Ideal) ((c : Thread nD τ).loc main_v0_0) :=
  fun _ => Spec.sqUpTo (gtImg m c) (outImg m c) 64
/-- The cross-entropy sum over the whole arrays, as the contents of output 1's array. -/
abbrev ceArr (c : Dev nD) : Buf (Elt Ideal) ((c : Thread nD τ).loc main_v0_1) :=
  fun _ => Spec.ceUpTo (gtSeg m c) (xSeg m c) 64

/-- At the last point the first output receives the image accumulator's new value. -/
theorem sqOut_last (c : Dev nD) (t : Fin cfg0.N) (h63 : t.val % 64 = 63) (j : S1x1.Idx) :
    (outsAt0 m c t.val t.isLt).1 j = Spec.sqUpTo (gtImg m c) (outImg m c) 64 := by
  have hN : t.val < 64 := lt_of_lt_of_eq t.isLt (show cfg0.N = 64 from N_0)
  have h0 : ¬t.val % 64 = 0 := by omega
  have h1 : t.val % 64 = 63 := h63
  have hv : t.val = 62 + 1 := by omega
  rw [outsAt0_C m c t h0 h1]; dsimp only
  refine (congrFun (Pieces.sqOut_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (gtBlk m c t) (outBlk m c t) (gsBlk m c t) (xsBlk m c t) (prevSq m c t) (prevCe m c t)) j).trans ?_
  rw [Tile.sqAcc_apply, sqTile_eq]
  show (outsAt0 m c (t.val - 1) _).2.2.1 _ + _ = _
  rw [sq_inv m c (t.val - 1)]
  unfold Spec.sqUpTo
  rw [show t.val - 1 + 1 = 63 from by omega, show t.val = 63 from by omega, ← Finset.sum_range_succ _ 63]

/-- And the second output the segmentation accumulator's. -/
theorem ceOut_last (c : Dev nD) (t : Fin cfg0.N) (h63 : t.val % 64 = 63) (j : S1x1.Idx) :
    (outsAt0 m c t.val t.isLt).2.1 j = Spec.ceUpTo (gtSeg m c) (xSeg m c) 64 := by
  have hN : t.val < 64 := lt_of_lt_of_eq t.isLt (show cfg0.N = 64 from N_0)
  have h0 : ¬t.val % 64 = 0 := by omega
  have h1 : t.val % 64 = 63 := h63
  rw [outsAt0_C m c t h0 h1]; dsimp only
  refine (congrFun (Pieces.ceOut_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (gtBlk m c t) (outBlk m c t) (gsBlk m c t) (xsBlk m c t) (prevSq m c t) (prevCe m c t)) j).trans ?_
  rw [Tile.ceAcc_apply, ceTile_eq]
  show (outsAt0 m c (t.val - 1) _).2.2.2 _ + _ = _
  rw [ce_inv m c (t.val - 1)]
  unfold Spec.ceUpTo
  rw [show t.val - 1 + 1 = 63 from by omega, show t.val = 63 from by omega, ← Finset.sum_range_succ _ 63]

/-- The last grid point. -/
abbrev tLast : Fin cfg0.N := ⟨63, by rw [show cfg0.N = 64 from N_0]; decide⟩

/-- What the one write-back of output 0 writes is the block of the constant array. -/
theorem flushed4_eq (c : Dev nD) (t : Fin cfg0.N) (hf : (cfg0.win 4).flush t = true) :
    (dats m 0 c).flushed 4 t = ((cfg0.win 4).blk t).view.read (Elt Ideal) (sqArr m c) := by
  have h63 : t.val % 64 = 63 := (flush0_4 t).mp hf
  show (cfg0.win 4).cut (grid0.coords t) ((dats m 0 c).after 4 t) = _
  rw [after0_4]
  funext y
  rw [View.read_apply]
  exact sqOut_last m c t h63 y

theorem flushed5_eq (c : Dev nD) (t : Fin cfg0.N) (hf : (cfg0.win 5).flush t = true) :
    (dats m 0 c).flushed 5 t = ((cfg0.win 5).blk t).view.read (Elt Ideal) (ceArr m c) := by
  have h63 : t.val % 64 = 63 := (flush0_5 t).mp hf
  show (cfg0.win 5).cut (grid0.coords t) ((dats m 0 c).after 5 t) = _
  rw [after0_5]
  funext y
  rw [View.read_apply]
  exact ceOut_last m c t h63 y

/-- After the run output 0's array holds the squared-error sum over all tiles. -/
theorem final4 (c : Dev nD) : (dats m 0 c).arrAt 4 cfg0.N = sqArr m c :=
  (dats m 0 c).arrAt_eq_of_cover 4 (sqArr m c) (flushed4_eq m c) fun i =>
    ⟨tLast, (flush0_4 tLast).mpr rfl, by
      show i ∈ ((View.whole main_v0_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]; omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]; omega⟩

/-- And output 1's the cross-entropy sum over all tiles. -/
theorem final5 (c : Dev nD) : (dats m 0 c).arrAt 5 cfg0.N = ceArr m c :=
  (dats m 0 c).arrAt_eq_of_cover 5 (ceArr m c) (flushed5_eq m c) fun i =>
    ⟨tLast, (flush0_5 tLast).mpr rfl, by
      show i ∈ ((View.whole main_v0_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]; omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 1 from by decide +kernel]; omega⟩

end Cert.KernelIdeal.Acc

end
-- ==== Proof.KernelTail.lean ====
/-
  The host operations after the kernel region, as stages.

  After the region the program reshapes the two `[1, 1]` outputs to scalars, divides the first by `786432`,
  negates the second and divides it by `262144`; gathers the rows of the feature array at the three index
  arrays (a negative index first shifted up by the row count), takes the squared distances anchor–positive and
  anchor–negative, the hinge of the difference of their roots, and the sum of the hinges; and adds the three
  terms with weights `1`. Each stage is named here, and the run's post reads the result as these stages of the
  two output arrays and the argument arrays.
-/
import proofs.«155311_j749_1_alg».proof.Proof.Gen.KernelIdeal.Frame
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

/-- The start indices of a row gather: a negative index shifted up by the row count, as a column. -/
def startIdx (x : (⟨S4096, .i32⟩ : BufTy).Contents (Elt F)) : (⟨S4096x1, .i32⟩ : BufTy).Contents (Elt F) :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 262144#32))) x)

/-- The rows the index array selects. -/
def rows (f : (⟨S1x262144x64, .f32⟩ : BufTy).Contents (Elt F)) (x : (⟨S4096, .i32⟩ : BufTy).Contents (Elt F)) :
    (⟨S4096x64, .f32⟩ : BufTy).Contents (Elt F) :=
  Host.gather gather_S262144x64_S4096x1_S4096x64_1_0_n_n_0_1_164
    (shapeCast S262144x64 f shapeCasts_S1x262144x64_S262144x64) (startIdx (F := F) x)

/-- The squared distances between the rows two index arrays select. -/
def dist (f : (⟨S1x262144x64, .f32⟩ : BufTy).Contents (Elt F)) (a b : (⟨S4096, .i32⟩ : BufTy).Contents (Elt F)) :
    (⟨S4096, .f32⟩ : BufTy).Contents (Elt F) :=
  Host.reduceAdd (mulf (subf (rows f a) (rows f b)) (subf (rows f a) (rows f b)))
    (constant (F := F) S_ .f32 0x00000000#32) reducesTo_S4096x64_S4096_d1 h_S_

/-- The hinges. -/
def hinges (f : (⟨S1x262144x64, .f32⟩ : BufTy).Contents (Elt F)) (a p n : (⟨S4096, .i32⟩ : BufTy).Contents (Elt F)) :
    (⟨S4096, .f32⟩ : BufTy).Contents (Elt F) :=
  maximumf (subf (Host.sqrt (dist f a p)) (Host.sqrt (dist f a n)))
    (broadcastInDim S4096 ![] bcast_S_S4096 (constant (F := F) S_ .f32 0x00000000#32))

/-- Their sum. -/
def trip (f : (⟨S1x262144x64, .f32⟩ : BufTy).Contents (Elt F)) (a p n : (⟨S4096, .i32⟩ : BufTy).Contents (Elt F)) :
    (⟨S_, .f32⟩ : BufTy).Contents (Elt F) :=
  Host.reduceAdd (hinges f a p n) (constant (F := F) S_ .f32 0x00000000#32) reducesTo_S4096_S_d0 h_S_

/-- The result: the three weighted terms. -/
def total (sq ce : (⟨S1x1, .f32⟩ : BufTy).Contents (Elt F)) (f : (⟨S1x262144x64, .f32⟩ : BufTy).Contents (Elt F))
    (a p n : (⟨S4096, .i32⟩ : BufTy).Contents (Elt F)) : (⟨S_, .f32⟩ : BufTy).Contents (Elt F) :=
  addf
    (addf
      (mulf (constant (F := F) S_ .f32 0x3F800000#32)
        (Host.divf (shapeCast S_ sq shapeCasts_S1x1_S_) (constant (F := F) S_ .f32 0x49400000#32)))
      (mulf (constant (F := F) S_ .f32 0x3F800000#32)
        (Host.divf (Host.negf (shapeCast S_ ce shapeCasts_S1x1_S_)) (constant (F := F) S_ .f32 0x48800000#32))))
    (mulf (constant (F := F) S_ .f32 0x3F800000#32) (trip f a p n))

variable (m : (ℓ : Loc nD τ sig) → Buf (Elt F) ℓ)

set_option maxHeartbeats 4000000 in
/-- What the frame run's post says the result buffer holds: the stages above, of the two outputs' arrays after
    the run and of the four argument arrays as launched. -/
theorem tail_eq (c : Dev nD) :
    Pipeline.afterTail₀ cfgs (dats m) 0 (V0 m) [hostOps1, hostOps1_1, hostOps1_2] c main_v43
      = total (F := F) ((dats m 0 c).arrAt 4 (cfgs 0).N) ((dats m 0 c).arrAt 5 (cfgs 0).N)
          (m ((c : Thread nD τ).loc main_arg4)) (m ((c : Thread nD τ).loc main_arg5))
          (m ((c : Thread nD τ).loc main_arg6)) (m ((c : Thread nD τ).loc main_arg7)) := by
  have e0 : Pipeline.withArrays (cfgs 0).spec c (V0 m c) (fun w => (dats m 0 c).arrAt w (cfgs 0).N)
      (Proc.devRef .tc main_v0_0) = (dats m 0 c).arrAt 4 (cfgs 0).N :=
    Pipeline.withArrays_arr spec0 launch0.win.arr_inj c (V0 m c) (fun w => (dats m 0 c).arrAt w (cfgs 0).N) 4
  have e1 : Pipeline.withArrays (cfgs 0).spec c (V0 m c) (fun w => (dats m 0 c).arrAt w (cfgs 0).N)
      (Proc.devRef .tc main_v0_1) = (dats m 0 c).arrAt 5 (cfgs 0).N :=
    Pipeline.withArrays_arr spec0 launch0.win.arr_inj c (V0 m c) (fun w => (dats m 0 c).arrAt w (cfgs 0).N) 5
  have e4 : Pipeline.withArrays (cfgs 0).spec c (V0 m c) (fun w => (dats m 0 c).arrAt w (cfgs 0).N)
      (Proc.devRef .tc main_arg4) = m ((c : Thread nD τ).loc main_arg4) :=
    Pipeline.withArrays_of_ne _ c (V0 m c) _ main_arg4 (by exact (by decide : ∀ w, Pipeline.arrRef spec0 w ≠ main_arg4))
  have e5 : Pipeline.withArrays (cfgs 0).spec c (V0 m c) (fun w => (dats m 0 c).arrAt w (cfgs 0).N)
      (Proc.devRef .tc main_arg5) = m ((c : Thread nD τ).loc main_arg5) :=
    Pipeline.withArrays_of_ne _ c (V0 m c) _ main_arg5 (by exact (by decide : ∀ w, Pipeline.arrRef spec0 w ≠ main_arg5))
  have e6 : Pipeline.withArrays (cfgs 0).spec c (V0 m c) (fun w => (dats m 0 c).arrAt w (cfgs 0).N)
      (Proc.devRef .tc main_arg6) = m ((c : Thread nD τ).loc main_arg6) :=
    Pipeline.withArrays_of_ne _ c (V0 m c) _ main_arg6 (by exact (by decide : ∀ w, Pipeline.arrRef spec0 w ≠ main_arg6))
  have e7 : Pipeline.withArrays (cfgs 0).spec c (V0 m c) (fun w => (dats m 0 c).arrAt w (cfgs 0).N)
      (Proc.devRef .tc main_arg7) = m ((c : Thread nD τ).loc main_arg7) :=
    Pipeline.withArrays_of_ne _ c (V0 m c) _ main_arg7 (by exact (by decide : ∀ w, Pipeline.arrRef spec0 w ≠ main_arg7))
  unfold Pipeline.afterTail₀
  simp only [hostOps1, hostOps1_1, hostOps1_2, List.flatten_cons, List.flatten_nil, List.append_nil, List.cons_append,
    List.nil_append]
  after_results_simp
  rw [e0, e1, e4, e5, e6, e7]
  (try simp only [TRef.ofBuf, TRef.toBuf, cast_eq])
  rfl

end Cert.KernelIdeal.Tail

end
-- ==== Proof.LibGatherRows.lean ====
/-
  Gathering whole rows, read at an index.

  `table[idx]` for a table of `N` rows of `D` features and `R` integer indices is a `gather` whose start index
  names the row axis and whose slice is one whole row. Read at result entry `(r, e)` it is the table at
  row `idx[r]` — read as a signed integer and clamped into `[0, N − 1]`, as every start index is — and
  feature `e`. Two layouts of the same read: the table as `[N, D]` with result `[R, D]`, and the table with a
  leading unit axis, `[1, N, D]` with result `[1, R, D]`, the unit axis carried along as an offset axis.
-/
import Idealize.ShloMosaic.Lib.ValueIdx

noncomputable section

namespace Cert.GatherRows

open Idealize.ShloMosaic Idealize.ShloMosaic.ValueIdx

variable {α : Type}

/-- The dimension numbers of a row gather from a `[N, D]` table at `[R, 1]` start indices. -/
abbrev dims2 (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row gather from a `[N, D]` table read at `(r, e)`. -/
theorem gather2_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (e : Fin D) :
    Host.gather (dims2 N R D wf) x idx (ix2 r e)
      = x (ix2 ⟨min (idx (ix2 r (0 : Fin 1))).toInt.toNat (N - 1), by omega⟩ e) := by
  unfold Host.gather
  congr 1
  funext a
  refine Fin.ext ?_
  match a with
  | ⟨0, _⟩ =>
    show (dims2 N R D wf).start (ix2 r e) idx 0 + (dims2 N R D wf).batchCoord (ix2 r e) 0
      + (dims2 N R D wf).offCoord (ix2 r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N R D wf).startIndexMap from List.mem_singleton.mpr rfl)]
    have hsi : (dims2 N R D wf).siIdx (ix2 r e) ⟨List.idxOf (0 : Fin 2) (dims2 N R D wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N R D wf).start (ix2 r e) idx 1 + (dims2 N R D wf).batchCoord (ix2 r e) 1
      + (dims2 N R D wf).offCoord (ix2 r e) 1 = e.val
    have hne : ¬ ((1 : Fin 2) = 0) := by decide
    rw [GatherDims.batchCoord_eq_zero _ _ _ List.not_mem_nil]
    unfold GatherDims.start
    rw [dif_neg (show ¬ (1 : Fin 2) ∈ (dims2 N R D wf).startIndexMap from
      fun h => absurd (List.mem_singleton.mp h) hne)]
    unfold GatherDims.offCoord
    rw [dif_pos (show (1 : Fin 2) ∈ (dims2 N R D wf).sKept from
      (GatherDims.mem_sKept _ _).mpr ⟨fun h => absurd (List.mem_singleton.mp h) hne, List.not_mem_nil⟩)]
    simp only [Nat.zero_add]
    rfl

/-- The dimension numbers of the same gather from a `[1, N, D]` table into `[1, R, D]`. -/
abbrev dims3 (N R D : Nat)
    (wf : GatherDims.WF ⟨3, ![1, N, D]⟩ ⟨2, ![R, 1]⟩ ⟨3, ![1, R, D]⟩ [0, 2] [1] [] [1] [] 1 ![1, 1, D]) :
    GatherDims ⟨3, ![1, N, D]⟩ ⟨2, ![R, 1]⟩ ⟨3, ![1, R, D]⟩ where
  offsetDims := [0, 2]
  collapsedSliceDims := [1]
  operandBatchingDims := []
  startIndicesBatchingDims := []
  startIndexMap := [1]
  indexVectorDim := 1
  sliceSizes := ![1, 1, D]
  wf := wf

/-- The row gather from a `[1, N, D]` table read at `(0, r, e)`. -/
theorem gather3_apply {N R D w : Nat} (hN : 0 < N)
    (wf : GatherDims.WF ⟨3, ![1, N, D]⟩ ⟨2, ![R, 1]⟩ ⟨3, ![1, R, D]⟩ [0, 2] [1] [] [1] [] 1 ![1, 1, D])
    (x : (⟨3, ![1, N, D]⟩ : Shape).Idx → α) (idx : IVec ⟨2, ![R, 1]⟩ w) (r : Fin R) (e : Fin D) :
    Host.gather (dims3 N R D wf) x idx (ix3 (0 : Fin 1) r e)
      = x (ix3 (0 : Fin 1) ⟨min (idx (ix2 r (0 : Fin 1))).toInt.toNat (N - 1), by omega⟩ e) := by
  unfold Host.gather
  congr 1
  funext a
  refine Fin.ext ?_
  match a with
  | ⟨0, _⟩ =>
    show (dims3 N R D wf).start (ix3 (0 : Fin 1) r e) idx 0 + (dims3 N R D wf).batchCoord (ix3 (0 : Fin 1) r e) 0
      + (dims3 N R D wf).offCoord (ix3 (0 : Fin 1) r e) 0 = 0
    have hne : ¬ ((0 : Fin 3) = 1) := by decide
    rw [GatherDims.batchCoord_eq_zero _ _ _ List.not_mem_nil]
    unfold GatherDims.start
    rw [dif_neg (show ¬ (0 : Fin 3) ∈ (dims3 N R D wf).startIndexMap from
      fun h => absurd (List.mem_singleton.mp h) hne)]
    unfold GatherDims.offCoord
    rw [dif_pos (show (0 : Fin 3) ∈ (dims3 N R D wf).sKept from
      (GatherDims.mem_sKept _ _).mpr ⟨fun h => absurd (List.mem_singleton.mp h) hne, List.not_mem_nil⟩)]
    simp only [Nat.zero_add]
    rfl
  | ⟨1, _⟩ =>
    show (dims3 N R D wf).start (ix3 (0 : Fin 1) r e) idx 1 + (dims3 N R D wf).batchCoord (ix3 (0 : Fin 1) r e) 1
      + (dims3 N R D wf).offCoord (ix3 (0 : Fin 1) r e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims3 N R D wf).startIndexMap from List.mem_singleton.mpr rfl)]
    have hsi : (dims3 N R D wf).siIdx (ix3 (0 : Fin 1) r e) ⟨List.idxOf (1 : Fin 3) (dims3 N R D wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨2, _⟩ =>
    show (dims3 N R D wf).start (ix3 (0 : Fin 1) r e) idx 2 + (dims3 N R D wf).batchCoord (ix3 (0 : Fin 1) r e) 2
      + (dims3 N R D wf).offCoord (ix3 (0 : Fin 1) r e) 2 = e.val
    have hne : ¬ ((2 : Fin 3) = 1) := by decide
    rw [GatherDims.batchCoord_eq_zero _ _ _ List.not_mem_nil]
    unfold GatherDims.start
    rw [dif_neg (show ¬ (2 : Fin 3) ∈ (dims3 N R D wf).startIndexMap from
      fun h => absurd (List.mem_singleton.mp h) hne)]
    unfold GatherDims.offCoord
    rw [dif_pos (show (2 : Fin 3) ∈ (dims3 N R D wf).sKept from
      (GatherDims.mem_sKept _ _).mpr ⟨fun h => absurd (List.mem_singleton.mp h) hne, List.not_mem_nil⟩)]
    simp only [Nat.zero_add]
    rfl

end Cert.GatherRows

end
-- ==== Proof.Loss.lean ====
/-
  The triplet term and the whole loss, on the extended reals.

  For triplet `j` the hinge is `max (√(d²(a, p)) − √(d²(a, n))) 0`, the squared distances taken between the rows
  the three index arrays select; the triplet term is the sum of the hinges. The loss is
  `1 · (S / 786432) + 1 · (−(T / 262144)) + 1 · triplet`, `S` the squared-error sum and `T` the cross-entropy
  sum over all 64 tiles. The float literals are kept as the patterns both programs spell; where a sum starts
  from the pattern of `+0.0` that start is kept too, so that both programs meet this text as they are printed.
-/
import proofs.«155311_j749_1_alg».proof.Proof.Spec

noncomputable section

open scoped BigOperators

namespace Cert.Spec

open Idealize.ShloMosaic Idealize.ShloMosaic.ValueIdx

/-- The pattern of `+0.0`, as both programs' sums start from it. -/
abbrev Z : EReal := Ideal.ofBits .f32 0x00000000#32
/-- The pattern of `1.0`: the three weights. -/
abbrev ONE : EReal := Ideal.ofBits .f32 0x3F800000#32

/-- Triplet `j`'s hinge. -/
def hinge (f : Feat) (a p n : Ids) (j : Fin 4096) : EReal :=
  max (Ideal.sqrt (Z + dist2 f a p j) - Ideal.sqrt (Z + dist2 f a n j)) Z

/-- The triplet term. -/
def triplet (f : Feat) (a p n : Ids) : EReal :=
  Z + ∑ j : (⟨1, ![4096]⟩ : Shape).Idx, hinge f a p n (j 0)

/-- The loss. -/
def loss (gt out : Img) (g x : Seg) (f : Feat) (a p n : Ids) : EReal :=
  (ONE * Ideal.div (sqUpTo gt out 64) (Ideal.ofBits .f32 0x49400000#32)
      + ONE * (-(Ideal.div (ceUpTo g x 64) (Ideal.ofBits .f32 0x48800000#32))))
    + ONE * triplet f a p n

end Cert.Spec

end
-- ==== Proof.KernelTailValue.lean ====
/-
  The host stages after the region, read on the extended reals.

  The start index of triplet `r` is the index with a negative value shifted up by the row count; the gathered
  row is the feature array's row at that index clamped into the array; the squared distance is the sum over the
  64 features started from `+0.0`; the hinge and the sum of hinges follow. With the two outputs holding the sums
  over all tiles, the result is the loss.
-/
import proofs.«155311_j749_1_alg».proof.Proof.KernelTail
import proofs.«155311_j749_1_alg».proof.Proof.LibGatherRows
import proofs.«155311_j749_1_alg».proof.Proof.Loss
import Idealize.ShloMosaic.Lib.Pipeline.Value

set_option maxRecDepth 16384

noncomputable section

open scoped BigOperators

namespace Cert.KernelIdeal.Tail

open Idealize.ShloMosaic Idealize.ShloMosaic.TcCoe Idealize.SL.Sem Idealize.ShloMosaic.ValueIdx
open Cert.KernelIdeal Cert.KernelIdeal.Gen

/-- A splat of an integer scalar reads the scalar. -/
theorem splatI_apply (v : BitVec 32) (r : Fin 4096) :
    broadcastInDim S4096 ![] bcast_S_S4096 (constantI S_ 32 v) (ix1 r) = v :=
  (broadcastInDim_apply _ bcast_S_S4096 (constantI S_ 32 v) (ix1 r) ix0 (fun a => a.elim0)).trans rfl

theorem startIdx_apply (x : Spec.Ids) (r : Fin 4096) :
    startIdx (F := Ideal) x (ix2 r (0 : Fin 1)) = Spec.normIdx (x (ix1 r)) := by
  unfold startIdx
  refine (broadcastInDim_apply _ bcast_S4096_S4096x1_0 _ (ix2 r (0 : Fin 1)) (ix1 r) (fun a => ?_)).trans ?_
  · match a with
    | ⟨0, _⟩ => show r.val = if (4096 : Nat) = 1 then 0 else r.val; rw [if_neg (by decide)]
  · show Scalar.select (IntOp.cmpi .slt (x (ix1 r)) (broadcastInDim S4096 ![] bcast_S_S4096 (constantI S_ 32 0#32) (ix1 r)))
        (IntOp.addi (x (ix1 r)) (broadcastInDim S4096 ![] bcast_S_S4096 (constantI S_ 32 262144#32) (ix1 r))) (x (ix1 r)) = _
    rw [splatI_apply, splatI_apply]
    rfl

theorem rows_apply (f : Spec.Feat) (x : Spec.Ids) (r : Fin 4096) (d : Fin 64) :
    rows (F := Ideal) f x (ix2 r d) = Spec.featAt f x r d := by
  unfold rows Spec.featAt
  refine (Cert.GatherRows.gather2_apply (N := 262144) (R := 4096) (D := 64) (by decide)
    gather_S262144x64_S4096x1_S4096x64_1_0_n_n_0_1_164_wf
    (shapeCast S262144x64 f shapeCasts_S1x262144x64_S262144x64) (startIdx (F := Ideal) x) r d).trans ?_
  refine shapeCast_apply f shapeCasts_S1x262144x64_S262144x64 _ (ix3 (0 : Fin 1) (Spec.clampRow (Spec.normIdx (x (ix1 r)))) d) ?_
  rw [Shape.rowMajor_val_three, Shape.rowMajor_val_two]
  show (0 * 262144 + min (Spec.normIdx (x (ix1 r))).toInt.toNat (262144 - 1)) * 64 + d.val
    = min (startIdx (F := Ideal) x (ix2 r (0 : Fin 1))).toInt.toNat (262144 - 1) * 64 + d.val
  rw [startIdx_apply, Nat.zero_mul, Nat.zero_add]

theorem lift_feat (h : S4096x64.Reduces [1] S4096) (r : Fin 4096) (d : Fin 64) : h.lift (ix1 r) d = ix2 r d := by
  funext a
  match a with
  | ⟨0, _⟩ => rfl
  | ⟨1, _⟩ => rfl

/-- A host sum over the features of a `[4096, 64]` array, read at row `r`. -/
theorem reduce_feat_apply (src : FVec Ideal S4096x64 .f32) (init : EReal) (h' : S4096x64.ReducesTo [1] S4096) (r : Fin 4096) :
    Ideal.hostReduceAdd h' src init (ix1 r) = init + ∑ d : Fin 64, src (ix2 r d) :=
  (Ideal.hostReduceAdd_single h' (by decide : S4096x64.Reduces [1] S4096) src init (ix1 r)).trans
    (congrArg (fun z => init + z) (Finset.sum_congr rfl fun d _ => congrArg src (lift_feat _ r d)))

theorem dist_apply (f : Spec.Feat) (a b : Spec.Ids) (r : Fin 4096) :
    dist (F := Ideal) f a b (ix1 r) = Spec.Z + Spec.dist2 f a b r := by
  unfold dist Spec.dist2
  simp only [Host.reduceAdd, Ideal.hostReduceAdd_def]
  refine (reduce_feat_apply _ _ _ r).trans ?_
  refine congrArg₂ (· + ·) rfl (Finset.sum_congr rfl fun d _ => ?_)
  show (rows (F := Ideal) f a (ix2 r d) - rows (F := Ideal) f b (ix2 r d))
    * (rows (F := Ideal) f a (ix2 r d) - rows (F := Ideal) f b (ix2 r d)) = _
  rw [rows_apply, rows_apply]

theorem hinges_apply (f : Spec.Feat) (a p n : Spec.Ids) (r : Fin 4096) :
    hinges (F := Ideal) f a p n (ix1 r) = Spec.hinge f a p n r := by
  unfold hinges Spec.hinge
  show max (Ideal.sqrt (dist (F := Ideal) f a p (ix1 r)) - Ideal.sqrt (dist (F := Ideal) f a n (ix1 r)))
      (broadcastInDim S4096 ![] bcast_S_S4096 (constant (F := Ideal) S_ .f32 0x00000000#32) (ix1 r)) = _
  rw [dist_apply, dist_apply]
  refine congrArg (max _) ?_
  exact (broadcastInDim_apply _ bcast_S_S4096 (constant (F := Ideal) S_ .f32 0x00000000#32) (ix1 r) ix0 (fun a => a.elim0)).trans rfl

theorem trip_apply (f : Spec.Feat) (a p n : Spec.Ids) (i : S_.Idx) :
    trip (F := Ideal) f a p n i = Spec.triplet f a p n := by
  unfold trip Spec.triplet
  simp only [Host.reduceAdd, Ideal.hostReduceAdd_def]
  refine (Ideal.hostReduceAdd_total reducesTo_S4096_S_d0 (fun b => b.elim0) _ _ i).trans ?_
  refine congrArg₂ (· + ·) rfl (Finset.sum_congr rfl fun j _ => ?_)
  rw [eq_ix1 j]
  exact hinges_apply f a p n (j 0)

/-- With the outputs at the two sums, the result is the loss. -/
theorem total_apply (sq ce : EReal) (gt out : Spec.Img) (g x : Spec.Seg) (f : Spec.Feat) (a p n : Spec.Ids)
    (hsq : sq = Spec.sqUpTo gt out 64) (hce : ce = Spec.ceUpTo g x 64) (i : S_.Idx) :
    total (F := Ideal) (fun _ => sq) (fun _ => ce) f a p n i = Spec.loss gt out g x f a p n := by
  unfold total Spec.loss
  show (Spec.ONE * Ideal.div sq (Ideal.ofBits .f32 0x49400000#32)
      + Spec.ONE * Ideal.div (-ce) (Ideal.ofBits .f32 0x48800000#32)) + Spec.ONE * trip (F := Ideal) f a p n i = _
  rw [trip_apply, Spec.div_neg_rows, hsq, hce]

end Cert.KernelIdeal.Tail

end
-- ==== Proof.KernelValue.lean ====
/-
  The idealized kernel's run, with its result.

  Every weakly fair execution ends with the result buffer holding the loss of the argument arrays (the stages
  after the region, of the two outputs at their 64-tile sums) and the arguments unchanged.
-/
import proofs.«155311_j749_1_alg».proof.Proof.KernelOut
import proofs.«155311_j749_1_alg».proof.Proof.KernelTailValue

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-- The loss of core `c`'s argument arrays. -/
abbrev lossOf (c : Dev nD) : EReal :=
  Spec.loss (m ((c : Thread nD τ).loc main_arg0)) (m ((c : Thread nD τ).loc main_arg2))
    (m ((c : Thread nD τ).loc main_arg1)) (m ((c : Thread nD τ).loc main_arg3))
    (m ((c : Thread nD τ).loc main_arg4)) (m ((c : Thread nD τ).loc main_arg5))
    (m ((c : Thread nD τ).loc main_arg6)) (m ((c : Thread nD τ).loc main_arg7))

/-- The result buffer after the run's tail holds the loss. -/
theorem result_eq (c : Dev nD) :
    Pipeline.afterTail₀ cfgs (dats m) 0 (V0 m) [hostOps1, hostOps1_1, hostOps1_2] c main_v43 = fun _ => lossOf m c := by
  rw [Tail.tail_eq m c,
    show (dats m 0 c).arrAt 4 (cfgs 0).N = Acc.sqArr m c from Acc.final4 m c,
    show (dats m 0 c).arrAt 5 (cfgs 0).N = Acc.ceArr m c from Acc.final5 m c]
  funext i
  exact Tail.total_apply _ _ (Acc.gtImg m c) (Acc.outImg m c) (Acc.gtSeg m c) (Acc.xSeg m c) _ _ _ _ rfl rfl i

theorem run : θ_run defs (onTc (τ := τ) (main (F := Ideal))) ⟨m, fun _ => 0, ρ⟩ fun r => ∀ c : Dev nD,
      r.2.mem ((c.tc : Thread nD τ).loc main_v43) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v43 (Pipeline.mem_restRefs_of main_v43 (by decide) (by decide))).trans (result_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.LibTRef.lean ====
/-
  A general lemma about typed references to tensor buffers (Idealize.ShloMosaic.StableHlo.TRef).

  A module-local function's operations read and write their buffers through typed references: a value of the
  tensor's type is transported to the buffer's type on the way in (`TRef.toBuf`) and back on the way out
  (`TRef.ofBuf`), both along the reference's stored equation between the two types. When the composed term of a
  host program is read back, every intermediate of an inlined callee appears wrapped as
  `x.ofBuf (x.toBuf v)`. The pair is the identity, for ANY typed reference: destruct the reference and substitute
  its type equation. As a rewrite rule it removes the pairs wherever they stand, whatever the reference.
-/
import Idealize.ShloMosaic.Lib.StableHlo

namespace Cert.LibTRef

open Idealize.ShloMosaic Idealize.ShloMosaic.StableHlo

/-- Transporting a value to a typed reference's buffer type and back is the identity. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- And the other way round. -/
theorem toBuf_ofBuf {sig : RefSig} {T : BufTy} {Val : EltTy → Type} (x : TRef sig T) (v : x.ref.ty.Contents Val) :
    x.toBuf (x.ofBuf v) = v := by
  obtain ⟨r, h, _, _⟩ := x
  subst h
  rfl

end Cert.LibTRef
-- ==== Proof.LibReduce02.lean ====
/-
  A host sum over the first and last axes of a `[1, R, D]` array.

  `jnp.sum(x, axis=(0, 2))` of a `[1, R, D]` array is, at `r`, the initial value plus the sum over the `D` entries
  of row `r` (the leading axis has one entry): the indices that reduce to `r` are exactly `(0, r, d)`.
-/
import Idealize.ShloMosaic.Lib.ValueIdx
import Idealize.ShloMosaic.PureOps.Ideal.Laws
import proofs.«155311_j749_1_alg».proof.Proof.LibSums

noncomputable section

open scoped BigOperators

namespace Cert.Reduce02

open Idealize.ShloMosaic Idealize.ShloMosaic.ValueIdx

theorem drop_eq_iff {R D : Nat} (h' : (⟨3, ![1, R, D]⟩ : Shape).ReducesTo [0, 2] ⟨1, ![R]⟩)
    (a : Fin 1) (b : Fin R) (d : Fin D) (r : Fin R) : h'.drop (ix3 a b d) = ix1 r ↔ b = r := by
  constructor
  · intro e
    have := congrArg (fun f : (⟨1, ![R]⟩ : Shape).Idx => (f 0).val) e
    exact Fin.ext this
  · rintro rfl
    funext b'
    match b' with
    | ⟨0, _⟩ => exact Fin.ext rfl

theorem hostReduceAdd_apply {R D : Nat} (h' : (⟨3, ![1, R, D]⟩ : Shape).ReducesTo [0, 2] ⟨1, ![R]⟩)
    (x : (⟨3, ![1, R, D]⟩ : Shape).Idx → EReal) (init : EReal) (r : Fin R) :
    Ideal.hostReduceAdd h' x init (ix1 r) = init + ∑ d : Fin D, x (ix3 (0 : Fin 1) r d) := by
  unfold Ideal.hostReduceAdd
  refine congrArg (fun z => init + z) ?_
  rw [Finset.sum_filter, Cert.Sums.sum_idx3, Fin.sum_univ_one]
  simp only [drop_eq_iff]
  have hb : ∀ b : Fin R, (∑ d : Fin D, if b = r then x (ix3 (0 : Fin 1) b d) else 0)
      = if b = r then ∑ d : Fin D, x (ix3 (0 : Fin 1) b d) else 0 := by
    intro b; split_ifs <;> simp
  simp only [hb, Finset.sum_ite_eq', Finset.mem_univ, if_true]

end Cert.Reduce02

end
-- ==== Proof.RefValue.lean ====
/-
  The reference, read on the extended reals: its result is the loss of its arguments.

  `jnp.mean` of the squared error is the sum over every entry (from `+0.0`) divided by `786432`; the sum over
  every entry is the sum over the 64 tiles. `log_softmax` takes the row maximum as a fold from `−∞` and once
  more the maximum with `−∞`, which changes nothing; its `log ∑ exp` starts its sum from `+0.0`, which changes
  nothing either. The cross entropy sums `g · logp` over the classes, then over every row: again the sum over
  the tiles. The triplet rows are gathered from the `[1, N, 64]` array directly, and the squared distance sums
  over the leading unit axis and the features at once.
-/
import proofs.«155311_j749_1_alg».proof.Proof.RefRead
import proofs.«155311_j749_1_alg».proof.Proof.LibTRef
import Idealize.ShloMosaic.Lib.StableHlo.Run
import proofs.«155311_j749_1_alg».proof.Proof.Loss
import proofs.«155311_j749_1_alg».proof.Proof.LibGatherRows
import proofs.«155311_j749_1_alg».proof.Proof.LibReduce02
import Idealize.ShloMosaic.Lib.Pipeline.Value

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP

/-! ## Index bookkeeping -/

theorem col_idx (n : Fin 262144) (c : Fin 10) :
    idx_main_call0_v3 (idx_main_call0_v4 (ix3 (0 : Fin 1) n c)) = ix2 (0 : Fin 1) n := by
  funext a
  match a with
  | ⟨0, _⟩ => exact Fin.ext rfl
  | ⟨1, _⟩ => exact Fin.ext rfl

theorem col_idx' (n : Fin 262144) (c : Fin 10) :
    idx_main_call0_v8 (idx_main_call0_v10 (ix3 (0 : Fin 1) n c)) = ix2 (0 : Fin 1) n := by
  funext a
  match a with
  | ⟨0, _⟩ => exact Fin.ext rfl
  | ⟨1, _⟩ => exact Fin.ext rfl

theorem row_idx7 (n : Fin 262144) (k : Fin 10) : idx_main_call0_v7 (ix2 (0 : Fin 1) n) k = ix3 (0 : Fin 1) n k := by
  funext a
  match a with
  | ⟨0, _⟩ => exact Fin.ext rfl
  | ⟨1, _⟩ => exact Fin.ext rfl
  | ⟨2, _⟩ => exact Fin.ext rfl

theorem row_idx6 (n : Fin 262144) (k : Fin 10) : idx_main_v6 (ix2 (0 : Fin 1) n) k = ix3 (0 : Fin 1) n k := by
  funext a
  match a with
  | ⟨0, _⟩ => exact Fin.ext rfl
  | ⟨1, _⟩ => exact Fin.ext rfl
  | ⟨2, _⟩ => exact Fin.ext rfl

theorem lift_class (h : S1x262144x10.Reduces [2] S1x262144) (n : Fin 262144) (c : Fin 10) :
    h.lift (ix2 (0 : Fin 1) n) c = ix3 (0 : Fin 1) n c := by
  funext a
  match a with
  | ⟨0, _⟩ => rfl
  | ⟨1, _⟩ => rfl
  | ⟨2, _⟩ => rfl

/-! ## The image term -/

theorem sq_ref (gt out : Spec.Img) (i : S_.Idx) :
    val_main_v2 (F := Ideal) gt out i = Spec.sqUpTo gt out 64 := by
  rw [val_main_v2_apply]
  show Ideal.ofBits .f32 0x00000000#32 + ∑ j : S1x262144x3.Idx, (out j - gt j) * (out j - gt j) = _
  rw [Ideal.ofBits_zero_f32, zero_add, Spec.sum_all_eq_tiles3]
  rfl

/-! ## The segmentation term -/

/-- The row maximum as `log_softmax` takes it. -/
theorem rowMax_ref (x : Spec.Seg) (n : Fin 262144) :
    val_main_call0_v2 (F := Ideal) x (ix2 (0 : Fin 1) n) = Spec.rowMax x n := by
  have h0 : val_main_call0_v0 (F := Ideal) x (ix2 (0 : Fin 1) n) = Spec.rowMax x n := by
    unfold val_main_call0_v0
    refine (Host.reduce_eq_fold_single FloatOps.maximumf x _ reducesTo_S1x262144x10_S1x262144_d2
      (by decide : S1x262144x10.Reduces [2] S1x262144) h_S_ (ix2 (0 : Fin 1) n)).trans ?_
    unfold Spec.rowMax
    show Finset.fold max (Ideal.ofBits .f32 0xFF800000#32) _ Finset.univ = _
    refine congrArg (Finset.fold max (Ideal.ofBits .f32 0xFF800000#32) · Finset.univ) ?_
    funext c
    exact congrArg x (lift_class _ n c)
  rw [val_main_call0_v2_apply, h0]
  show max (Ideal.ofBits .f32 0xFF800000#32) (Spec.rowMax x n) = Spec.rowMax x n
  refine max_eq_right ?_
  unfold Spec.rowMax
  exact (Finset.le_fold_max _).mpr (Or.inl le_rfl)

/-- The row shifted by its maximum. -/
theorem shifted_ref (x : Spec.Seg) (n : Fin 262144) (c : Fin 10) :
    val_main_call0_v5 (F := Ideal) x (ix3 (0 : Fin 1) n c) = x (ix3 (0 : Fin 1) n c) - Spec.rowMax x n := by
  rw [val_main_call0_v5_apply, val_main_call0_v4_apply, val_main_call0_v3_apply, col_idx, rowMax_ref]
  rfl

/-- `log_softmax` at an entry. -/
theorem logp_ref (x : Spec.Seg) (n : Fin 262144) (c : Fin 10) :
    val_main_v4 (F := Ideal) x (ix3 (0 : Fin 1) n c) = Spec.logp x n c := by
  rw [val_main_v4_apply, shifted_ref, val_main_call0_v10_apply, val_main_call0_v9_apply, val_main_call0_v8_apply, col_idx',
    val_main_call0_v7_apply]
  unfold Spec.logp
  show (x (ix3 (0 : Fin 1) n c) - Spec.rowMax x n)
      - Ideal.log (Ideal.ofBits .f32 0x00000000#32
          + ∑ k : Fin 10, Ideal.exp (val_main_call0_v5 (F := Ideal) x (idx_main_call0_v7 (ix2 (0 : Fin 1) n) k))) = _
  rw [Ideal.ofBits_zero_f32, zero_add]
  refine congrArg (fun z => (x (ix3 (0 : Fin 1) n c) - Spec.rowMax x n) - Ideal.log z) ?_
  refine Finset.sum_congr rfl fun k _ => ?_
  rw [row_idx7, shifted_ref]

/-- A row's cross entropy. -/
theorem rowCe_ref (g x : Spec.Seg) (n : Fin 262144) :
    val_main_v6 (F := Ideal) g x (ix2 (0 : Fin 1) n) = Spec.rowCe g x n := by
  rw [val_main_v6_apply]
  unfold Spec.rowCe
  show Ideal.ofBits .f32 0x00000000#32 + ∑ k : Fin 10, val_main_v5 (F := Ideal) g x (idx_main_v6 (ix2 (0 : Fin 1) n) k) = _
  rw [Ideal.ofBits_zero_f32, zero_add]
  refine Finset.sum_congr rfl fun k _ => ?_
  rw [row_idx6, val_main_v5_apply, logp_ref]
  rfl

theorem ce_ref (g x : Spec.Seg) (i : S_.Idx) :
    val_main_v7 (F := Ideal) g x i = Spec.ceUpTo g x 64 := by
  rw [val_main_v7_apply]
  show Ideal.ofBits .f32 0x00000000#32 + ∑ j : S1x262144.Idx, val_main_v6 (F := Ideal) g x j = _
  rw [Ideal.ofBits_zero_f32, zero_add, Spec.sum_all_eq_tiles2]
  unfold Spec.ceUpTo Spec.tileCe
  refine Finset.sum_congr rfl fun t _ => Finset.sum_congr rfl fun j _ => ?_
  exact rowCe_ref g x (Spec.row t j)

/-! ## The triplet term -/

theorem splatI_apply (v : BitVec 32) (r : Fin 4096) :
    broadcastInDim S4096 ![] bcast_S_S4096 (constantI S_ 32 v) (ix1 r) = v :=
  (broadcastInDim_apply _ bcast_S_S4096 (constantI S_ 32 v) (ix1 r) ix0 (fun a => a.elim0)).trans rfl

theorem idx15 (r : Fin 4096) : idx_main_v15 (ix2 r (0 : Fin 1)) = ix1 r := by
  funext a
  match a with
  | ⟨0, _⟩ => exact Fin.ext rfl
theorem idx22 (r : Fin 4096) : idx_main_v22 (ix2 r (0 : Fin 1)) = ix1 r := by
  funext a
  match a with
  | ⟨0, _⟩ => exact Fin.ext rfl
theorem idx29 (r : Fin 4096) : idx_main_v29 (ix2 r (0 : Fin 1)) = ix1 r := by
  funext a
  match a with
  | ⟨0, _⟩ => exact Fin.ext rfl

theorem start5 (a : Spec.Ids) (r : Fin 4096) : val_main_v15 (F := Ideal) a (ix2 r (0 : Fin 1)) = Spec.normIdx (a (ix1 r)) := by
  rw [val_main_v15_apply, idx15, val_main_v14_apply, val_main_v11_apply, val_main_v13_apply]
  unfold val_main_v10 val_main_v12 val_main_c val_main_c_4
  rw [splatI_apply, splatI_apply]
  rfl
theorem start6 (a : Spec.Ids) (r : Fin 4096) : val_main_v22 (F := Ideal) a (ix2 r (0 : Fin 1)) = Spec.normIdx (a (ix1 r)) := by
  rw [val_main_v22_apply, idx22, val_main_v21_apply, val_main_v18_apply, val_main_v20_apply]
  unfold val_main_v17 val_main_v19 val_main_c_5 val_main_c_6
  rw [splatI_apply, splatI_apply]
  rfl
theorem start7 (a : Spec.Ids) (r : Fin 4096) : val_main_v29 (F := Ideal) a (ix2 r (0 : Fin 1)) = Spec.normIdx (a (ix1 r)) := by
  rw [val_main_v29_apply, idx29, val_main_v28_apply, val_main_v25_apply, val_main_v27_apply]
  unfold val_main_v24 val_main_v26 val_main_c_7 val_main_c_8
  rw [splatI_apply, splatI_apply]
  rfl

/-- A gathered row's feature, whichever start indices it is read at. -/
theorem gather_ref (f : Spec.Feat) (idx : IVec S4096x1 32) (v : BitVec 32) (r : Fin 4096) (d : Fin 64)
    (hv : idx (ix2 r (0 : Fin 1)) = v) :
    Host.gather gather_S1x262144x64_S4096x1_S1x4096x64_02_1_n_n_1_1_1164 f idx (ix3 (0 : Fin 1) r d)
      = f (ix3 (0 : Fin 1) (Spec.clampRow v) d) := by
  refine (Cert.GatherRows.gather3_apply (N := 262144) (R := 4096) (D := 64) (by decide)
    gather_S1x262144x64_S4096x1_S1x4096x64_02_1_n_n_1_1_1164_wf f idx r d).trans ?_
  refine congrArg f ?_
  funext a
  match a with
  | ⟨0, _⟩ => rfl
  | ⟨1, _⟩ => exact Fin.ext (by show min (idx (ix2 r (0 : Fin 1))).toInt.toNat (262144 - 1) = min v.toInt.toNat (262144 - 1); rw [hv])
  | ⟨2, _⟩ => rfl

theorem rows5 (f : Spec.Feat) (a : Spec.Ids) (r : Fin 4096) (d : Fin 64) :
    val_main_v16 (F := Ideal) f a (ix3 (0 : Fin 1) r d) = Spec.featAt f a r d :=
  gather_ref f _ _ r d (start5 a r)
theorem rows6 (f : Spec.Feat) (a : Spec.Ids) (r : Fin 4096) (d : Fin 64) :
    val_main_v23 (F := Ideal) f a (ix3 (0 : Fin 1) r d) = Spec.featAt f a r d :=
  gather_ref f _ _ r d (start6 a r)
theorem rows7 (f : Spec.Feat) (a : Spec.Ids) (r : Fin 4096) (d : Fin 64) :
    val_main_v30 (F := Ideal) f a (ix3 (0 : Fin 1) r d) = Spec.featAt f a r d :=
  gather_ref f _ _ r d (start7 a r)

theorem dist_pos (f : Spec.Feat) (a p : Spec.Ids) (r : Fin 4096) :
    val_main_v33 (F := Ideal) f a p (ix1 r) = Spec.Z + Spec.dist2 f a p r := by
  unfold val_main_v33 Spec.dist2
  simp only [Host.reduceAdd, Ideal.hostReduceAdd_def]
  refine (Cert.Reduce02.hostReduceAdd_apply reducesTo_S1x4096x64_S4096_d0_2 _ _ r).trans ?_
  refine congrArg₂ (· + ·) rfl (Finset.sum_congr rfl fun d _ => ?_)
  show (val_main_v16 (F := Ideal) f a (ix3 (0 : Fin 1) r d) - val_main_v23 (F := Ideal) f p (ix3 (0 : Fin 1) r d))
    * (val_main_v16 (F := Ideal) f a (ix3 (0 : Fin 1) r d) - val_main_v23 (F := Ideal) f p (ix3 (0 : Fin 1) r d)) = _
  rw [rows5, rows6]

theorem dist_neg (f : Spec.Feat) (a n : Spec.Ids) (r : Fin 4096) :
    val_main_v37 (F := Ideal) f a n (ix1 r) = Spec.Z + Spec.dist2 f a n r := by
  unfold val_main_v37 Spec.dist2
  simp only [Host.reduceAdd, Ideal.hostReduceAdd_def]
  refine (Cert.Reduce02.hostReduceAdd_apply reducesTo_S1x4096x64_S4096_d0_2 _ _ r).trans ?_
  refine congrArg₂ (· + ·) rfl (Finset.sum_congr rfl fun d _ => ?_)
  show (val_main_v16 (F := Ideal) f a (ix3 (0 : Fin 1) r d) - val_main_v30 (F := Ideal) f n (ix3 (0 : Fin 1) r d))
    * (val_main_v16 (F := Ideal) f a (ix3 (0 : Fin 1) r d) - val_main_v30 (F := Ideal) f n (ix3 (0 : Fin 1) r d)) = _
  rw [rows5, rows7]

theorem hinge_ref (f : Spec.Feat) (a p n : Spec.Ids) (r : Fin 4096) :
    val_main_v40 (F := Ideal) f a p n (ix1 r) = Spec.hinge f a p n r := by
  unfold Spec.hinge
  show max (Ideal.sqrt (val_main_v33 (F := Ideal) f a p (ix1 r)) - Ideal.sqrt (val_main_v37 (F := Ideal) f a n (ix1 r)))
      (val_main_call1_v0 (F := Ideal) (ix1 r)) = _
  rw [dist_pos, dist_neg, val_main_call1_v0_apply]
  rfl

theorem trip_ref (f : Spec.Feat) (a p n : Spec.Ids) (i : S_.Idx) :
    val_main_v41 (F := Ideal) f a p n i = Spec.triplet f a p n := by
  rw [val_main_v41_apply]
  unfold Spec.triplet
  refine congrArg₂ (· + ·) rfl (Finset.sum_congr rfl fun j _ => ?_)
  rw [eq_ix1 j]
  exact hinge_ref f a p n (j 0)

/-! ## The result -/

theorem result_ref (gt : Spec.Img) (g : Spec.Seg) (out : Spec.Img) (x : Spec.Seg) (f : Spec.Feat) (a p n : Spec.Ids)
    (i : S_.Idx) :
    val_main_v46 (F := Ideal) gt g out x f a p n i = Spec.loss gt out g x f a p n := by
  unfold Spec.loss
  show (Spec.ONE * Ideal.div (val_main_v2 (F := Ideal) gt out i) (Ideal.ofBits .f32 0x49400000#32)
      + Spec.ONE * (-(Ideal.div (val_main_v7 (F := Ideal) g x i) (Ideal.ofBits .f32 0x48800000#32))))
    + Spec.ONE * val_main_v41 (F := Ideal) f a p n i = _
  rw [sq_ref, ce_ref, trip_ref]

/-! ## The run

Every weakly fair execution of the reference terminates with the result buffer at its stages' composed value of the
launch contents and the arguments unchanged: the straight-line run of its 80 host operations read back, the
typed-reference transports of the two inlined callees stripped pair by pair. -/

section Run

open Idealize.ShloMosaic.StableHlo Cert.ReferenceIdeal.RunP

variable {F : FTy → Type} [FloatOps F]

set_option maxRecDepth 8192 in
set_option maxHeartbeats 32000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v46).trans (by
        after_results_simp
        simp only [Cert.LibTRef.ofBuf_toBuf]
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Run

end Cert.ReferenceIdeal.RefValue

end
-- ==== Proof.lean ====
/-
  The certificate's proof.

  The kernel computes a three-term loss. A grid of 64 points streams the image and segmentation arrays in tiles
  of 4096 rows and keeps two accumulators: the sum of squared errors and the sum over rows of the cross entropy
  `∑_c g · log_softmax(x)`; after the last point the host divides the first by the number of entries, negates
  and divides the second by the number of rows, and adds the triplet hinge sum, which it computes itself from
  rows gathered at three index arrays. The reference computes the same three terms with whole-array sums.

  On the extended reals the two agree: a sum over every entry is the sum over the tiles (addition is
  commutative and associative there, so no finiteness is used); the two log-softmax texts are one function
  (the reference's extra maximum with `−∞` and its sums' `+0.0` starts change nothing); negating before or
  after dividing by the row count is the same; and the two row gathers read the same clamped rows. The
  precondition is never opened. The three frames are the generated ones (the reference's is its run with the
  result dropped); the idealization rewrote nothing, so `preserves` is `True`.
-/
import proofs.«155311_j749_1_alg».proof.Defs
import proofs.«155311_j749_1_alg».proof.Proof.Gen.Kernel
import proofs.«155311_j749_1_alg».proof.Proof.Gen.Kernel.Skeleton
import proofs.«155311_j749_1_alg».proof.Proof.Gen.Kernel.Launch
import proofs.«155311_j749_1_alg».proof.Proof.Gen.Kernel.Points
import proofs.«155311_j749_1_alg».proof.Proof.Gen.Kernel.Frame
import proofs.«155311_j749_1_alg».proof.Proof.Gen.KernelIdeal
import proofs.«155311_j749_1_alg».proof.Proof.Gen.KernelIdeal.Skeleton
import proofs.«155311_j749_1_alg».proof.Proof.Gen.KernelIdeal.Launch
import proofs.«155311_j749_1_alg».proof.Proof.Gen.KernelIdeal.Points
import proofs.«155311_j749_1_alg».proof.Proof.Gen.KernelIdeal.Frame
import proofs.«155311_j749_1_alg».proof.Proof.Gen.ReferenceIdeal
import proofs.«155311_j749_1_alg».proof.Proof.Gen.Pre_finite_inputs
import proofs.«155311_j749_1_alg».proof.Proof.KernelValue
import proofs.«155311_j749_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the loss of the (agreeing) argument arrays in their result buffer. -/
theorem algebraic : Cert.algebraic_KernelIdeal_ReferenceIdeal := by
  intro m ρ m' ρ' _ hagree
  refine ⟨fun c _ => Cert.KernelIdeal.KValue.lossOf m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  funext i
  obtain ⟨h0, h1, h2, h3, h4, h5, h6, h7⟩ := hagree c
  rw [Cert.ReferenceIdeal.RefValue.result_ref, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
